-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S512x512 : Shape := ⟨2, ![512, 512]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x512 .f32) (main_arg5 : FVec F S2048 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x4096x2048 .f32) (main_arg1 : FVec F S512x512 .f32) (main_arg2 : FVec F S512x512 .f32) (main_arg3 : FVec F S512x512 .f32) (main_arg4 : FVec F S512x512 .f32) (main_arg5 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S4x4096x2048 : Shape := ⟨3, ![4, 4096, 2048]⟩
abbrev S512x512 : Shape := ⟨2, ![512, 512]⟩
abbrev S2048 : Shape := ⟨1, ![2048]⟩
abbrev S1x512x512 : Shape := ⟨3, ![1, 512, 512]⟩
abbrev S4x512x512 : Shape := ⟨3, ![4, 512, 512]⟩
abbrev S1x4x512x512 : Shape := ⟨4, ![1, 4, 512, 512]⟩
abbrev S4x4x512x512 : Shape := ⟨4, ![4, 4, 512, 512]⟩
abbrev S512x4x512x4 : Shape := ⟨4, ![512, 4, 512, 4]⟩
abbrev S2048x2048 : Shape := ⟨2, ![2048, 2048]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 48
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S1x512x512, .f32⟩
  | .hbm, ⟨11, _⟩ => ⟨S1x512x512, .f32⟩
  | .hbm, ⟨12, _⟩ => ⟨S1x512x512, .f32⟩
  | .hbm, ⟨13, _⟩ => ⟨S1x512x512, .f32⟩
  | .hbm, ⟨14, _⟩ => ⟨S4x512x512, .f32⟩
  | .hbm, ⟨15, _⟩ => ⟨S512x512, .f32⟩
  | .hbm, ⟨16, _⟩ => ⟨S512x512, .f32⟩
  | .hbm, ⟨17, _⟩ => ⟨S1x512x512, .f32⟩
  | .hbm, ⟨18, _⟩ => ⟨S1x512x512, .f32⟩
  | .hbm, ⟨19, _⟩ => ⟨S1x512x512, .f32⟩
  | .hbm, ⟨20, _⟩ => ⟨S1x512x512, .f32⟩
  | .hbm, ⟨21, _⟩ => ⟨S4x512x512, .f32⟩
  | .hbm, ⟨22, _⟩ => ⟨S512x512, .f32⟩
  | .hbm, ⟨23, _⟩ => ⟨S512x512, .f32⟩
  | .hbm, ⟨24, _⟩ => ⟨S1x512x512, .f32⟩
  | .hbm, ⟨25, _⟩ => ⟨S1x512x512, .f32⟩
  | .hbm, ⟨26, _⟩ => ⟨S1x512x512, .f32⟩
  | .hbm, ⟨27, _⟩ => ⟨S1x512x512, .f32⟩
  | .hbm, ⟨28, _⟩ => ⟨S4x512x512, .f32⟩
  | .hbm, ⟨29, _⟩ => ⟨S512x512, .f32⟩
  | .hbm, ⟨30, _⟩ => ⟨S512x512, .f32⟩
  | .hbm, ⟨31, _⟩ => ⟨S1x512x512, .f32⟩
  | .hbm, ⟨32, _⟩ => ⟨S1x512x512, .f32⟩
  | .hbm, ⟨33, _⟩ => ⟨S1x512x512, .f32⟩
  | .hbm, ⟨34, _⟩ => ⟨S1x512x512, .f32⟩
  | .hbm, ⟨35, _⟩ => ⟨S4x512x512, .f32⟩
  | .hbm, ⟨36, _⟩ => ⟨S1x4x512x512, .f32⟩
  | .hbm, ⟨37, _⟩ => ⟨S1x4x512x512, .f32⟩
  | .hbm, ⟨38, _⟩ => ⟨S1x4x512x512, .f32⟩
  | .hbm, ⟨39, _⟩ => ⟨S1x4x512x512, .f32⟩
  | .hbm, ⟨40, _⟩ => ⟨S4x4x512x512, .f32⟩
  | .hbm, ⟨41, _⟩ => ⟨S512x4x512x4, .f32⟩
  | .hbm, ⟨42, _⟩ => ⟨S2048x2048, .f32⟩
  | .hbm, ⟨43, _⟩ => ⟨S2048x2048, .bf16⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  bcast_S512x512_S1x512x512_1_2 : S512x512.BroadcastsInDim S1x512x512 (![1, 2] : Fin 2 → Fin S1x512x512.rank)
  concatenates_S1x512x512_S1x512x512_S1x512x512_S1x512x512_S4x512x512_d0 : Shape.Concatenates [S1x512x512, S1x512x512, S1x512x512, S1x512x512] S4x512x512 0
  bcast_S4x512x512_S1x4x512x512_1_2_3 : S4x512x512.BroadcastsInDim S1x4x512x512 (![1, 2, 3] : Fin 3 → Fin S1x4x512x512.rank)
  concatenates_S1x4x512x512_S1x4x512x512_S1x4x512x512_S1x4x512x512_S4x4x512x512_d0 : Shape.Concatenates [S1x4x512x512, S1x4x512x512, S1x4x512x512, S1x4x512x512] S4x4x512x512 0
  transposes_S4x4x512x512_S512x4x512x4_2_0_3_1 : S4x4x512x512.Transposes [2, 0, 3, 1] S512x4x512x4
  shapeCasts_S512x4x512x4_S2048x2048 : S512x4x512x4.ShapeCasts S2048x2048
  bitsLt_bf16_f32 : FTy.bits .bf16 < FTy.bits .f32
  shapeCasts_S2048_S1x2048 : S2048.ShapeCasts S1x2048
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v39) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S512x512 : Shape := ⟨2, ![512, 512]⟩
abbrev S2048 : Shape := ⟨1, ![2048]⟩
abbrev S16384x512x4 : Shape := ⟨3, ![16384, 512, 4]⟩
abbrev S16384x512x1 : Shape := ⟨3, ![16384, 512, 1]⟩
abbrev S16384x512 : Shape := ⟨2, ![16384, 512]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048, .f32⟩
  | .hbm, ⟨6, _⟩ => ⟨S16384x512x4, .f32⟩
  | .hbm, ⟨7, _⟩ => ⟨S16384x512x1, .f32⟩
  | .hbm, ⟨8, _⟩ => ⟨S16384x512, .f32⟩
  | .hbm, ⟨9, _⟩ => ⟨S16384x512x1, .f32⟩
  | .hbm, ⟨10, _⟩ => ⟨S16384x512, .f32⟩
  | .hbm, ⟨11, _⟩ => ⟨S16384x512x1, .f32⟩
  | .hbm, ⟨12, _⟩ => ⟨S16384x512, .f32⟩
  | .hbm, ⟨13, _⟩ => ⟨S16384x512x1, .f32⟩
  | .hbm, ⟨14, _⟩ => ⟨S16384x512, .f32⟩
  | .hbm, ⟨15, _⟩ => ⟨S512x512, .f32⟩
  | .hbm, ⟨16, _⟩ => ⟨S16384x512, .f32⟩
  | .hbm, ⟨17, _⟩ => ⟨S512x512, .f32⟩
  | .hbm, ⟨18, _⟩ => ⟨S16384x512, .f32⟩
  | .hbm, ⟨19, _⟩ => ⟨S512x512, .f32⟩
  | .hbm, ⟨20, _⟩ => ⟨S16384x512, .f32⟩
  | .hbm, ⟨21, _⟩ => ⟨S512x512, .f32⟩
  | .hbm, ⟨22, _⟩ => ⟨S16384x512, .f32⟩
  | .hbm, ⟨23, _⟩ => ⟨S512x512, .f32⟩
  | .hbm, ⟨24, _⟩ => ⟨S16384x512, .f32⟩
  | .hbm, ⟨25, _⟩ => ⟨S512x512, .f32⟩
  | .hbm, ⟨26, _⟩ => ⟨S16384x512, .f32⟩
  | .hbm, ⟨27, _⟩ => ⟨S512x512, .f32⟩
  | .hbm, ⟨28, _⟩ => ⟨S16384x512, .f32⟩
  | .hbm, ⟨29, _⟩ => ⟨S512x512, .f32⟩
  | .hbm, ⟨30, _⟩ => ⟨S16384x512, .f32⟩
  | .hbm, ⟨31, _⟩ => ⟨S512x512, .f32⟩
  | .hbm, ⟨32, _⟩ => ⟨S16384x512, .f32⟩
  | .hbm, ⟨33, _⟩ => ⟨S512x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512x1, .f32⟩
  | .hbm, ⟨48, _⟩ => ⟨S16384x512x1, .f32⟩
  | .hbm, ⟨49, _⟩ => ⟨S16384x512x1, .f32⟩
  | .hbm, ⟨50, _⟩ => ⟨S16384x512x1, .f32⟩
  | .hbm, ⟨51, _⟩ => ⟨S16384x512x4, .f32⟩
  | .hbm, ⟨52, _⟩ => ⟨S4x4096x2048, .f32⟩
  | .hbm, ⟨53, _⟩ => ⟨S1x1x2048, .f32⟩
  | .hbm, ⟨54, _⟩ => ⟨S4x4096x2048, .f32⟩
  | .hbm, ⟨55, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩

abbrev nD : Nat := 1
abbrev τ : Topo := Topo.v7x

variable {F : FTy → Type} [FloatOps F]

class Facts₀ : Prop where
  shapeCasts_S4x4096x2048_S16384x512x4 : S4x4096x2048.ShapeCasts S16384x512x4
  slices_S16384x512x4_S16384x512x1_0_0_0 : S16384x512x4.Slices ![0, 0, 0] S16384x512x1
  shapeCasts_S16384x512x1_S16384x512 : S16384x512x1.ShapeCasts S16384x512
  slices_S16384x512x4_S16384x512x1_0_0_1 : S16384x512x4.Slices ![0, 0, 1] S16384x512x1
  slices_S16384x512x4_S16384x512x1_0_0_2 : S16384x512x4.Slices ![0, 0, 2] S16384x512x1
  slices_S16384x512x4_S16384x512x1_0_0_3 : S16384x512x4.Slices ![0, 0, 3] S16384x512x1
  transposes_S512x512_S512x512_1_0 : S512x512.Transposes [1, 0] S512x512
  bcast_S16384x512_S16384x512x1_0_1 : S16384x512.BroadcastsInDim S16384x512x1 (![0, 1] : Fin 2 → Fin S16384x512x1.rank)
  concatenates_S16384x512x1_S16384x512x1_S16384x512x1_S16384x512x1_S16384x512x4_d2 : Shape.Concatenates [S16384x512x1, S16384x512x1, S16384x512x1, S16384x512x1] S16384x512x4 2
  shapeCasts_S16384x512x4_S4x4096x2048 : S16384x512x4.ShapeCasts S4x4096x2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S16384x512_S512x512_S16384x512_1_0_0_1_n_n_wf : DotDims.WF S16384x512 S512x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.KernelFrame.lean ====
/-
  The quaternion layer's kernel program runs to the end, faults nowhere and leaves its six argument arrays as they
  were — and, on the way, what its output array holds when it ends.

  @main is forty host operations (they fold the four weight matrices into one 2048 × 2048 matrix and re-lay the input
  as 16384 rows and the bias as one row), ONE pallas_call over 32 grid points, and a last reshape. At grid point `t`
  the call's body loads rows `512 t … 512 t + 511` of the re-laid input (window 0), the whole folded matrix (window 1)
  and the bias row (window 2), and stores their product plus the bias into the same rows of the result (window 3).
  The body reads nothing it wrote and keeps nothing between points, so what window 3's buffer holds after the body is
  one function `out0_3` of the three input blocks; the pipeline's proof data says so at every point, the launch
  theorem for a region with host operations around it gives the run, and no host operation writes an argument.
-/
import proofs.«405642_j32744830665498_3_alg».proof.Proof.Gen.Kernel.Launch
import proofs.«405642_j32744830665498_3_alg».proof.Proof.Gen.Kernel.Skeleton
import proofs.«405642_j32744830665498_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 512 × 2048 and 2048 × 2048 entries: one recursion step per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffers when the call is entered: the launch contents after the forty host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the call touches the call's arrays and the buffers that bypass it only; -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- it allocates nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and it writes its own result buffer, which is none of the call's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 5 either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point — fetched there, or (the matrix and the bias, fetched at
    the first point only) still there because the block index has not moved — for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- No window stages an argument, so each argument is a buffer the run's post leaves as the reshape after the call
    leaves it: untouched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's accesses -/

abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0
abbrev r0_2 : Rect S1x2048 := Rect.unit (s := S1x2048) ![0, 0] S1x2048.size inb_S1x2048_S1x2048_0_0

/-! ## What the body leaves in the output window's buffer -/

/-- Window 3's buffer after the body: its one store, of the product of the input block with the folded matrix plus the
    bias row (`k0_pay1`), over the whole buffer. -/
def out0_3 (x0 : Vec F S512x2048 .f32) (x1 : Vec F S2048x2048 .bf16) (x2 : Vec F S1x2048 .f32) : Vec F S512x2048 .f32 :=
  View.canon [⟨r0_0, k0_pay1 (View.ld x0 r0_0) (View.ld x1 r0_1) (View.ld x2 r0_2)⟩]

/-- The store covers the buffer. -/
theorem cover0_3 (p0 : Vec F S512x2048 .f32) (y : S512x2048.Idx) :
    ∃ pc ∈ ([⟨r0_0, p0⟩] : List (View.Piece (Elt F) S512x2048 .f32)), y ∈ pc.1.set :=
  View.cover_of_tiled [⟨r0_0, p0⟩] S512x2048.size (by rfl) y

/-! ## The body's triple -/

set_option maxHeartbeats 1000000 in
/-- The body on whole staging buffers, the three inputs' at contents `x0`, `x1`, `x2` and the output's at anything (the body
    loads it once and discards the value), runs to a state holding the inputs' as they were and the output's at `out0_3`. -/
theorem sound_kernel (c : Dev nD) (E : Set ℕ) (i : grid0.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__quat_kernel i arg1 harg1 arg2 harg2 arg3 harg3 arg4 harg4) K := by
  simp only [cc0__quat_kernel_eq_skeleton]; unfold cc0__quat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the call finds them; after the body at point `t` each input's buffer at its
    block and the output's at `out0_3` of the three input blocks; nothing else is held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the contents at the call's entry (by projection: the fold over the host operations is
    never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which takes unfolding
-- plain definitions in a metavariable's type
set_option backward.isDefEq.respectTransparency.types false in
/-- From any memory with zero counters every weakly fair execution of @main terminates, and in every final state each of
    the call's four arrays holds what the proof data's blocks make of it and every other buffer what the last reshape
    leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KernelIdealFrame.lean ====
/-
  The quaternion layer's kernel program runs to the end, faults nowhere and leaves its six argument arrays as they
  were — and, on the way, what its output array holds when it ends.

  @main is forty host operations (they fold the four weight matrices into one 2048 × 2048 matrix and re-lay the input
  as 16384 rows and the bias as one row), ONE pallas_call over 32 grid points, and a last reshape. At grid point `t`
  the call's body loads rows `512 t … 512 t + 511` of the re-laid input (window 0), the whole folded matrix (window 1)
  and the bias row (window 2), and stores their product plus the bias into the same rows of the result (window 3).
  The body reads nothing it wrote and keeps nothing between points, so what window 3's buffer holds after the body is
  one function `out0_3` of the three input blocks; the pipeline's proof data says so at every point, the launch
  theorem for a region with host operations around it gives the run, and no host operation writes an argument.
-/
import proofs.«405642_j32744830665498_3_alg».proof.Proof.Gen.KernelIdeal.Launch
import proofs.«405642_j32744830665498_3_alg».proof.Proof.Gen.KernelIdeal.Skeleton
import proofs.«405642_j32744830665498_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 512 × 2048 and 2048 × 2048 entries: one recursion step per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffers when the call is entered: the launch contents after the forty host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the call touches the call's arrays and the buffers that bypass it only; -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- it allocates nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and it writes its own result buffer, which is none of the call's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 3 either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 4 either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host operation after the call writes argument 5 either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point — fetched there, or (the matrix and the bias, fetched at
    the first point only) still there because the block index has not moved — for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- No window stages an argument, so each argument is a buffer the run's post leaves as the reshape after the call
    leaves it: untouched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's accesses -/

abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0
abbrev r0_2 : Rect S1x2048 := Rect.unit (s := S1x2048) ![0, 0] S1x2048.size inb_S1x2048_S1x2048_0_0

/-! ## What the body leaves in the output window's buffer -/

/-- Window 3's buffer after the body: its one store, of the product of the input block with the folded matrix plus the
    bias row (`k0_pay1`), over the whole buffer. -/
def out0_3 (x0 : Vec F S512x2048 .f32) (x1 : Vec F S2048x2048 .bf16) (x2 : Vec F S1x2048 .f32) : Vec F S512x2048 .f32 :=
  View.canon [⟨r0_0, k0_pay1 (View.ld x0 r0_0) (View.ld x1 r0_1) (View.ld x2 r0_2)⟩]

/-- The store covers the buffer. -/
theorem cover0_3 (p0 : Vec F S512x2048 .f32) (y : S512x2048.Idx) :
    ∃ pc ∈ ([⟨r0_0, p0⟩] : List (View.Piece (Elt F) S512x2048 .f32)), y ∈ pc.1.set :=
  View.cover_of_tiled [⟨r0_0, p0⟩] S512x2048.size (by rfl) y

/-! ## The body's triple -/

set_option maxHeartbeats 1000000 in
/-- The body on whole staging buffers, the three inputs' at contents `x0`, `x1`, `x2` and the output's at anything (the body
    loads it once and discards the value), runs to a state holding the inputs' as they were and the output's at `out0_3`. -/
theorem sound_kernel (c : Dev nD) (E : Set ℕ) (i : grid0.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__quat_kernel i arg1 harg1 arg2 harg2 arg3 harg3 arg4 harg4) K := by
  simp only [cc0__quat_kernel_eq_skeleton]; unfold cc0__quat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the call finds them; after the body at point `t` each input's buffer at its
    block and the output's at `out0_3` of the three input blocks; nothing else is held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the contents at the call's entry (by projection: the fold over the host operations is
    never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which takes unfolding
-- plain definitions in a metavariable's type
set_option backward.isDefEq.respectTransparency.types false in
/-- From any memory with zero counters every weakly fair execution of @main terminates, and in every final state each of
    the call's four arrays holds what the proof data's blocks make of it and every other buffer what the last reshape
    leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.KernelPayload.lean ====
/-
  The body's one stored value read at an entry: row `p` of the input block times column `q` of the folded matrix, plus
  entry `q` of the bias row.

  The body rounds its input block to bf16 before the product; on the extended reals a change of float format is the
  identity. The product starts from a zero accumulator, so entry `(p, q)` is the plain sum over the 2048 contracted
  positions; the bias is one row repeated down the 512 rows of the block.
-/
import proofs.«405642_j32744830665498_3_alg».proof.Proof.Gen.KernelIdeal.Skeleton
import proofs.«405642_j32744830665498_3_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The bias row repeated down the rows, read at `(p, q)`: the row's entry `q`. -/
theorem bias_rows (v : FVec Ideal S1x2048 .f32) (p : Fin 512) (q : Fin 2048) :
    broadcastTo S512x2048 v broadcasts_S1x2048_S512x2048 (ix2 p q) = v (ix2 (0 : Fin 1) q) :=
  broadcastTo_apply v broadcasts_S1x2048_S512x2048 (ix2 p q) (ix2 (0 : Fin 1) q) (fun a => by
    match a with
    | ⟨0, _⟩ => show (0 : Nat) = if (1 : Nat) = 1 then 0 else _; rw [if_pos rfl]
    | ⟨1, _⟩ => show q.val = if (2048 : Nat) = 1 then 0 else q.val; rw [if_neg (by decide)])

/-- The stored value at `(p, q)`. -/
theorem pay_apply (v0 : Vec Ideal S512x2048 .f32) (v3 : Vec Ideal S2048x2048 .bf16) (v6 : Vec Ideal S1x2048 .f32)
    (p : Fin 512) (q : Fin 2048) :
    k0_pay1 (F := Ideal) v0 v3 v6 (ix2 p q) = (∑ k : Fin 2048, v0 (ix2 p k) * v3 (ix2 k q)) + v6 (ix2 (0 : Fin 1) q) := by
  unfold k0_pay1
  show matmul (F := Ideal) dot_S512x2048_S2048x2048_S512x2048_1_0_0_1_n_n none
        (truncf (F := Ideal) .bf16 (shapeCast S512x2048 v0 shapeCasts_S512x2048_S512x2048) bitsLt_bf16_f32)
        (shapeCast S2048x2048 v3 shapeCasts_S2048x2048_S2048x2048) (constant (F := Ideal) S512x2048 .f32 0x00000000#32) (ix2 p q)
      + broadcastTo S512x2048 (shapeCast S1x2048 v6 shapeCasts_S1x2048_S1x2048) broadcasts_S1x2048_S512x2048 (ix2 p q) = _
  refine congrArg₂ (· + ·) ?_ ?_
  · refine (Cert.Lib.matmul_plain_apply dot_S512x2048_S2048x2048_S512x2048_1_0_0_1_n_n rfl rfl rfl rfl rfl rfl none _ _ p q).trans ?_
    refine Finset.sum_congr rfl fun k _ => ?_
    refine congrArg₂ (· * ·) ?_ ?_
    · exact congrFun (shapeCast_self v0 shapeCasts_S512x2048_S512x2048) (ix2 p k)
    · exact congrFun (shapeCast_self v3 shapeCasts_S2048x2048_S2048x2048) (ix2 k q)
  · refine (bias_rows _ p q).trans ?_
    exact congrFun (shapeCast_self v6 shapeCasts_S1x2048_S1x2048) (ix2 (0 : Fin 1) q)

end Cert.KernelIdeal.Payload

end
-- ==== Proof.KernelBlocks.lean ====
/-
  From blocks to the array: after the run the call's result array holds, at row `r` and column `q`, row `r` of the
  re-laid input times column `q` of the folded matrix plus entry `q` of the bias row; and @main's result is that array
  re-laid as `[4, 4096, 2048]`.

  Grid point `t` writes back rows `512 t … 512 t + 511`: its input block is the same rows of the re-laid input, the
  matrix and the bias row are whole at every point, so what it writes is the restriction of ONE function of the three
  arrays to those rows. The 32 points' row ranges fill the 16384 rows, so the array ends at that function everywhere.
-/
import proofs.«405642_j32744830665498_3_alg».proof.Proof.KernelIdealFrame
import proofs.«405642_j32744830665498_3_alg».proof.Proof.KernelPayload
import Idealize.ShloMosaic.Lib.Pipeline.Value
import Idealize.ShloMosaic.Lib.StableHlo.Run

set_option maxRecDepth 16384

noncomputable section

open scoped BigOperators

namespace Cert.KernelIdeal.Blocks

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three arrays the call reads, and the blocks a point sees, at their literal types -/

abbrev xarr (c : Dev nD) : Vec Ideal S16384x2048 .f32 := V m c main_v39
abbrev warr (c : Dev nD) : Vec Ideal S2048x2048 .bf16 := V m c main_v37
abbrev barr (c : Dev nD) : Vec Ideal S1x2048 .f32 := V m c main_v38

abbrev xblk (c : Dev nD) (t : Fin cfg0.N) : Vec Ideal S512x2048 .f32 := iblk m c 0 t
abbrev wblk (c : Dev nD) (t : Fin cfg0.N) : Vec Ideal S2048x2048 .bf16 := iblk m c 1 t
abbrev bblk (c : Dev nD) (t : Fin cfg0.N) : Vec Ideal S1x2048 .f32 := iblk m c 2 t

/-- Entry `(r, q)` of the product of the re-laid input with the folded matrix, plus the bias. -/
def Gent (X : Vec Ideal S16384x2048 .f32) (W : Vec Ideal S2048x2048 .bf16) (B : Vec Ideal S1x2048 .f32)
    (r : Fin 16384) (q : Fin 2048) : EReal :=
  (∑ k : Fin 2048, X (ix2 r k) * W (ix2 k q)) + B (ix2 (0 : Fin 1) q)

/-- The whole result array as one function of the three arrays. -/
def Gflat (X : Vec Ideal S16384x2048 .f32) (W : Vec Ideal S2048x2048 .bf16) (B : Vec Ideal S1x2048 .f32) :
    Vec Ideal S16384x2048 .f32 :=
  fun i => Gent X W B ⟨(i 0).val, idx2_lt0 i⟩ ⟨(i 1).val, idx2_lt1 i⟩

theorem hz : (![0, 0] : Fin 2 → Nat) = fun _ => 0 := funext fun a => by fin_cases a <;> rfl

theorem hN : cfg0.N = 32 := N_0

/-- The printed index maps over the grid: the input's and the result's row blocks move with the point, everything else
    stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each block read where the array has it -/

/-- Row `p` of point `t`'s input block is row `512 t + p` of the re-laid input. -/
theorem xblk_read (c : Dev nD) (t : Fin cfg0.N) (p : Fin 512) (k : Fin 2048) (h : 512 * t.val + p.val < 16384) :
    xblk m c t (ix2 p k) = xarr m c (ix2 (⟨512 * t.val + p.val, h⟩ : Fin 16384) k) := by
  obtain ⟨e0, e1, -⟩ := idx_facts t
  show V m c main_v39 (((cfg0.win 0).blk t).view.emb (ix2 p k)) = V m c main_v39 (ix2 (⟨512 * t.val + p.val, h⟩ : Fin 16384) k)
  refine congrArg (V m c main_v39) (funext fun a => Fin.ext ?_)
  match a with
  | ⟨0, _⟩ => show win0_0.index t (0 : Fin 2) * 512 + 1 * p.val = 512 * t.val + p.val; omega
  | ⟨1, _⟩ => show win0_0.index t (1 : Fin 2) * 2048 + 1 * k.val = k.val; omega

/-- The matrix block is the whole matrix at every point. -/
theorem wblk_read (c : Dev nD) (t : Fin cfg0.N) (k q : Fin 2048) : wblk m c t (ix2 k q) = warr m c (ix2 k q) := by
  obtain ⟨-, -, e0, e1, -⟩ := idx_facts t
  show V m c main_v37 (((cfg0.win 1).blk t).view.emb (ix2 k q)) = V m c main_v37 (ix2 k q)
  refine congrArg (V m c main_v37) (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- The bias block is the whole bias row at every point. -/
theorem bblk_read (c : Dev nD) (t : Fin cfg0.N) (z : Fin 1) (q : Fin 2048) : bblk m c t (ix2 z q) = barr m c (ix2 z q) := by
  obtain ⟨-, -, -, -, e0, e1, -⟩ := idx_facts t
  show V m c main_v38 (((cfg0.win 2).blk t).view.emb (ix2 z q)) = V m c main_v38 (ix2 z q)
  refine congrArg (V m c main_v38) (funext fun a => Fin.ext ?_)
  match a with
  | ⟨0, _⟩ => show win0_2.index t (0 : Fin 2) * 1 + 1 * z.val = z.val; omega
  | ⟨1, _⟩ => show win0_2.index t (1 : Fin 2) * 2048 + 1 * q.val = q.val; omega

/-! ## What a point writes back -/

/-- What point `t` writes back is block `t` of `Gflat` of the three arrays. -/
theorem flushed_eq (c : Dev nD) (t : Fin cfg0.N) :
    (dats m 0 c).flushed 3 t = ((cfg0.win 3).blk t).view.read (Elt Ideal) (Gflat (xarr m c) (warr m c) (barr m c)) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  have ht : t.val < 32 := lt_of_lt_of_eq t.isLt hN
  obtain ⟨-, -, -, -, -, -, e0, e1⟩ := idx_facts t
  funext j
  obtain ⟨p, q, rfl⟩ : ∃ (p : Fin 512) (q : Fin 2048), j = ix2 p q := ⟨j 0, j 1, eq_ix2 j⟩
  have hr : 512 * t.val + p.val < 16384 := by have := p.isLt; omega
  have e3 : ((cfg0.win 3).blk t).view.emb (ix2 p q) = (ix2 (⟨512 * t.val + p.val, hr⟩ : Fin 16384) q : S16384x2048.Idx) := by
    funext a; apply Fin.ext
    match a with
    | ⟨0, _⟩ => show win0_3.index t (0 : Fin 2) * 512 + 1 * p.val = 512 * t.val + p.val; omega
    | ⟨1, _⟩ => show win0_3.index t (1 : Fin 2) * 2048 + 1 * q.val = q.val; omega
  show k0_pay1 (F := Ideal) (xblk m c t) (wblk m c t) (bblk m c t) (ix2 p q)
      = Gflat (xarr m c) (warr m c) (barr m c) (((cfg0.win 3).blk t).view.emb (ix2 p q))
  refine (Payload.pay_apply (xblk m c t) (wblk m c t) (bblk m c t) p q).trans ?_
  refine Eq.trans ?_ (congrArg (Gflat (xarr m c) (warr m c) (barr m c)) e3).symm
  show _ = Gent (xarr m c) (warr m c) (barr m c) ⟨512 * t.val + p.val, hr⟩ q
  unfold Gent
  refine congrArg₂ (· + ·) (Finset.sum_congr rfl fun k _ => congrArg₂ (· * ·) (xblk_read m c t p k hr) (wblk_read m c t k q)) (bblk_read m c t 0 q)

/-! ## The cover -/

/-- An index of the result array is in point `t`'s block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v40).slice (win0_3.rect t)).set ↔ _
  rw [View.set_slice_whole, Rect.mem_set_unit]
  exact Iff.rfl

/-- Row `r` lies in the block of point `r / 512`: every index is written back by some point. -/
theorem cover (i : S16384x2048.Idx) : ∃ t : Fin cfg0.N, (cfg0.win 3).flush t = true ∧ i ∈ ((cfg0.win 3).blk t).view.set := by
  have h0 : (i 0).val < 16384 := idx2_lt0 i
  have h1 : (i 1).val < 2048 := idx2_lt1 i
  let t : Fin cfg0.N := ⟨(i 0).val / 512, by rw [hN]; omega⟩
  obtain ⟨-, -, -, -, -, -, e0, e1⟩ := idx_facts t
  have tv : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the run. -/
theorem final (c : Dev nD) : (dats m 0 c).arrAt 3 cfg0.N = Gflat (xarr m c) (warr m c) (barr m c) :=
  (dats m 0 c).arrAt_eq_of_cover 3 (Gflat (xarr m c) (warr m c) (barr m c)) (fun t _ => flushed_eq m c t) cover

/-! ## The reshape after the call -/

/-- @main's result: the result array re-laid. -/
theorem tail_eq (c : Dev nD) :
    Pipeline.afterTail₀ cfgs (dats m) 0 (V0 m) [hostOps1] c main_v41
      = shapeCast S4x4096x2048 (Gflat (xarr m c) (warr m c) (barr m c)) shapeCasts_S16384x2048_S4x4096x2048 := by
  unfold Pipeline.afterTail₀
  show StableHlo.after hostOps1 _ (Proc.devRef .tc main_v41) = _
  after_results
  have e : Pipeline.withArrays (cfgs 0).spec c (V0 m c) (fun w => (dats m 0 c).arrAt w (cfgs 0).N) (Proc.devRef .tc main_v40)
      = Gflat (xarr m c) (warr m c) (barr m c) :=
    (Pipeline.withArrays_arr spec0 launch0.win.arr_inj c (V0 m c) (fun w => (dats m 0 c).arrAt w cfg0.N) 3).trans (final m c)
  funext i
  exact congrFun (congrArg (fun v => shapeCast S4x4096x2048 v shapeCasts_S16384x2048_S4x4096x2048) e) i

end Cert.KernelIdeal.Blocks

end
-- ==== Proof.QuatSpec.lean ====
/-
  The quaternion linear layer as one function of its arguments, and the two spellings of it that the two programs
  compute.

  A row of 2048 numbers is 512 quaternions laid component by component: position `4 i + c` holds component `c` of
  quaternion `i`. The layer multiplies each input quaternion by a weight quaternion `(wr, wi, wj, wk)` (Hamilton's
  product) and sums over the 512 inputs; component `c'` of output quaternion `o` is a signed sum of four real
  inner products, one per input component.

  * `combo` is that signed sum as written out: four inner products of length 512 added and subtracted.
  * `fold` is the same number as ONE inner product of length 2048 against a column of the 2048 × 2048 matrix whose
    entry at row `4 i + c`, column `4 o + c'` is `ent c c' i o`, the weight (with its sign) that takes input component
    `c` to output component `c'`.
  The two agree on finite numbers (`QuatAlgebra`); on the extended reals a difference of infinite inner products
  need not be the inner product of the differences, which is why finiteness is asked.
-/
import Idealize.ShloMosaic.PureOps.Ideal
import Idealize.ShloMosaic.Lib.ValueIdx

noncomputable section

open scoped BigOperators

namespace Quat

open Idealize.ShloMosaic Idealize.ShloMosaic.ValueIdx

/-- Position `4 i + c`: component `c` of quaternion `i` in an interleaved row. -/
def at4 (i : Fin 512) (c : Fin 4) : Fin 2048 := ⟨4 * i.val + c.val, by omega⟩
/-- Which quaternion a position belongs to. -/
def quo (k : Fin 2048) : Fin 512 := ⟨k.val / 4, by omega⟩
/-- Which component a position holds. -/
def rem (k : Fin 2048) : Fin 4 := ⟨k.val % 4, by omega⟩

theorem quo_at4 (i : Fin 512) (c : Fin 4) : quo (at4 i c) = i := by
  apply Fin.ext; simp only [quo, at4]; omega
theorem rem_at4 (i : Fin 512) (c : Fin 4) : rem (at4 i c) = c := by
  apply Fin.ext; simp only [rem, at4]; omega
theorem at4_quo_rem (k : Fin 2048) : at4 (quo k) (rem k) = k := by
  apply Fin.ext; simp only [quo, rem, at4]; omega

/-- The weight, with its sign, that takes input component `c` of quaternion `i` to output component `c'` of
    quaternion `o` (Hamilton's product with the weight on the right of each matrix product: `w o i`). -/
def ent (wr wi wj wk : Fin 512 → Fin 512 → EReal) (c c' : Fin 4) (i o : Fin 512) : EReal :=
  (![![wr o i, wi o i, wj o i, wk o i],
     ![-(wi o i), wr o i, wi o i, -(wi o i)],
     ![-(wj o i), -(wj o i), wr o i, wj o i],
     ![-(wk o i), wk o i, -(wk o i), wr o i]] : Fin 4 → Fin 4 → EReal) c c'

/-- The inner product of input component `c` (over the 512 quaternions of a row) with row `o` of a weight. -/
def dotq (xv : Fin 2048 → EReal) (w : Fin 512 → Fin 512 → EReal) (c : Fin 4) (o : Fin 512) : EReal :=
  ∑ i : Fin 512, xv (at4 i c) * w o i

/-- Output component `c'` of quaternion `o` as four inner products combined in the order the module writes them. -/
def combo (xv : Fin 2048 → EReal) (wr wi wj wk : Fin 512 → Fin 512 → EReal) (o : Fin 512) (c' : Fin 4) : EReal :=
  (![dotq xv wr 0 o - dotq xv wi 1 o - dotq xv wj 2 o - dotq xv wk 3 o,
     dotq xv wr 1 o + dotq xv wi 0 o + dotq xv wk 3 o - dotq xv wj 2 o,
     dotq xv wr 2 o - dotq xv wk 3 o + dotq xv wj 0 o + dotq xv wi 1 o,
     dotq xv wr 3 o + dotq xv wj 2 o - dotq xv wi 1 o + dotq xv wk 0 o] : Fin 4 → EReal) c'

/-- The same component as one inner product of length 2048 against the folded matrix's column `4 o + c'`. -/
def fold (xv : Fin 2048 → EReal) (wr wi wj wk : Fin 512 → Fin 512 → EReal) (o : Fin 512) (c' : Fin 4) : EReal :=
  ∑ k : Fin 2048, xv k * ent wr wi wj wk (rem k) c' (quo k) o

/-- An extended real that is a real number. -/
def Fin' {ι : Type} (f : ι → EReal) : Prop := ∀ i, f i ≠ ⊤ ∧ f i ≠ ⊥

/-! ## The arrays -/

abbrev SX : Shape := ⟨3, ![4, 4096, 2048]⟩
abbrev SW : Shape := ⟨2, ![512, 512]⟩
abbrev SB : Shape := ⟨1, ![2048]⟩

/-- Row `(b, s)` of the input. -/
def row (x : SX.Idx → EReal) (b : Fin 4) (s : Fin 4096) : Fin 2048 → EReal := fun k => x (ix3 b s k)
/-- A weight matrix by its two coordinates (output quaternion, input quaternion). -/
def mat (w : SW.Idx → EReal) : Fin 512 → Fin 512 → EReal := fun o i => w (ix2 o i)

/-- The layer's result written the reference's way. -/
def G (x : SX.Idx → EReal) (wr wi wj wk : SW.Idx → EReal) (bias : SB.Idx → EReal) : SX.Idx → EReal :=
  fun j => combo (row x (j 0) (j 1)) (mat wr) (mat wi) (mat wj) (mat wk) (quo (j 2)) (rem (j 2)) + bias (ix1 (j 2))

/-- The layer's result written the folded way. -/
def GK (x : SX.Idx → EReal) (wr wi wj wk : SW.Idx → EReal) (bias : SB.Idx → EReal) : SX.Idx → EReal :=
  fun j => fold (row x (j 0) (j 1)) (mat wr) (mat wi) (mat wj) (mat wk) (quo (j 2)) (rem (j 2)) + bias (ix1 (j 2))

end Quat

end
-- ==== Proof.KernelHost.lean ====
/-
  The host operations that run before the kernel, read index by index.

  Before the kernel starts, the program builds three arrays from its arguments: the folded 2048 × 2048 weight
  matrix, the input with its two leading axes merged into 16384 rows, and the bias as a matrix of one row.

  The folded matrix is assembled from the four 512 × 512 weights as a 4 × 4 table of transposed weights, some
  negated: entry (c, c') of the table is the matrix that takes input component c to output component c'. The table's
  axes (c, c', i, o) are reordered to (i, c, o, c') and flattened, so that row 4 i + c and column 4 o + c' of the
  result hold the table's entry (c, c') at (i, o), which is the weight at (o, i) with the table's sign. On the
  extended reals the final narrowing of the number format changes nothing.

  Each layout operation (transpose, new unit axis, stacking, flattening) reads one entry of its operand at each index
  of its result; the lemmas below name that entry by its coordinates, one operation at a time, and are then chained.
-/
import proofs.«405642_j32744830665498_3_alg».proof.Proof.Gen.KernelIdeal.Launch
import proofs.«405642_j32744830665498_3_alg».proof.Proof.QuatSpec
import Idealize.ShloMosaic.Lib.StableHlo.Run
import Idealize.ShloMosaic.Lib.Pipeline.Value
import Idealize.ShloMosaic.Lib.ValueIdx

noncomputable section

namespace Cert.KernelIdeal.HostVal

open Cert.KernelIdeal Cert.KernelIdeal.Gen Idealize.ShloMosaic Idealize.ShloMosaic.TcCoe Idealize.ShloMosaic.ValueIdx

/-! ## The three host terms -/

/-- A weight matrix transposed: entry `(i, o)` is the weight's entry `(o, i)`. -/
def tw (w : FVec Ideal S512x512 .f32) : FVec Ideal S512x512 .f32 :=
  transpose S512x512 [1, 0] w transposes_S512x512_S512x512_1_0

/-- The host's negation of a matrix, entry by entry. -/
def ng (a : FVec Ideal S512x512 .f32) : FVec Ideal S512x512 .f32 := Host.negf a

/-- A matrix given a leading axis of length one. -/
def up3 (a : FVec Ideal S512x512 .f32) : FVec Ideal S1x512x512 .f32 :=
  broadcastInDim S1x512x512 ![1, 2] bcast_S512x512_S1x512x512_1_2 a

/-- Four such matrices stacked along the leading axis. -/
def cat3 (a b c d : FVec Ideal S1x512x512 .f32) : FVec Ideal S4x512x512 .f32 :=
  concatenate S4x512x512 0 [⟨S1x512x512, a⟩, ⟨S1x512x512, b⟩, ⟨S1x512x512, c⟩, ⟨S1x512x512, d⟩]
    concatenates_S1x512x512_S1x512x512_S1x512x512_S1x512x512_S4x512x512_d0

/-- A stack of four matrices given a leading axis of length one. -/
def up4 (a : FVec Ideal S4x512x512 .f32) : FVec Ideal S1x4x512x512 .f32 :=
  broadcastInDim S1x4x512x512 ![1, 2, 3] bcast_S4x512x512_S1x4x512x512_1_2_3 a

/-- Four such stacks stacked along the leading axis: a 4 × 4 table of matrices. -/
def cat4 (a b c d : FVec Ideal S1x4x512x512 .f32) : FVec Ideal S4x4x512x512 .f32 :=
  concatenate S4x4x512x512 0 [⟨S1x4x512x512, a⟩, ⟨S1x4x512x512, b⟩, ⟨S1x4x512x512, c⟩, ⟨S1x4x512x512, d⟩]
    concatenates_S1x4x512x512_S1x4x512x512_S1x4x512x512_S1x4x512x512_S4x4x512x512_d0

/-- Row `c` of the table: the four signed transposed weights that input component `c` meets, one per output
    component. -/
def row0 (wr wi wj wk : FVec Ideal S512x512 .f32) : FVec Ideal S4x512x512 .f32 :=
  cat3 (up3 (tw wr)) (up3 (tw wi)) (up3 (tw wj)) (up3 (tw wk))
def row1 (wr wi : FVec Ideal S512x512 .f32) : FVec Ideal S4x512x512 .f32 :=
  cat3 (up3 (ng (tw wi))) (up3 (tw wr)) (up3 (tw wi)) (up3 (ng (tw wi)))
def row2 (wr wj : FVec Ideal S512x512 .f32) : FVec Ideal S4x512x512 .f32 :=
  cat3 (up3 (ng (tw wj))) (up3 (ng (tw wj))) (up3 (tw wr)) (up3 (tw wj))
def row3 (wr wk : FVec Ideal S512x512 .f32) : FVec Ideal S4x512x512 .f32 :=
  cat3 (up3 (ng (tw wk))) (up3 (tw wk)) (up3 (ng (tw wk))) (up3 (tw wr))

/-- The 4 × 4 table of 512 × 512 matrices, indexed (input component, output component, input quaternion, output
    quaternion). -/
def table (wr wi wj wk : FVec Ideal S512x512 .f32) : FVec Ideal S4x4x512x512 .f32 :=
  cat4 (up4 (row0 wr wi wj wk)) (up4 (row1 wr wi)) (up4 (row2 wr wj)) (up4 (row3 wr wk))

/-- The folded 2048 × 2048 weight matrix: the table with its axes reordered to (input quaternion, input component,
    output quaternion, output component), flattened to rows `4 i + c` and columns `4 o + c'`, and narrowed. -/
def wbig (wr wi wj wk : FVec Ideal S512x512 .f32) : FVec Ideal S2048x2048 .bf16 :=
  truncf .bf16
    (shapeCast S2048x2048
      (transpose S512x4x512x4 [2, 0, 3, 1] (table wr wi wj wk) transposes_S4x4x512x512_S512x4x512x4_2_0_3_1)
      shapeCasts_S512x4x512x4_S2048x2048)
    bitsLt_bf16_f32

/-- The input with its two leading axes merged: row `4096 b + s` is row `(b, s)`. -/
def xflat (x : FVec Ideal S4x4096x2048 .f32) : FVec Ideal S16384x2048 .f32 :=
  shapeCast S16384x2048 x shapeCasts_S4x4096x2048_S16384x2048

/-- The bias as a matrix of one row. -/
def brow (b : FVec Ideal S2048 .f32) : FVec Ideal S1x2048 .f32 :=
  shapeCast S1x2048 b shapeCasts_S2048_S1x2048

/-! ## What the host operations leave in the three buffers the kernel reads -/

/-- After the forty host operations, run in order from any memory, the weight buffer holds the folded matrix of the
    four weight arguments. -/
theorem after_w (m : (ℓ : Loc nD τ sig) → Buf (Elt Ideal) ℓ) (c : Dev nD) :
    StableHlo.after (hostOps0 (F := Ideal)) (fun b => m (c, b)) (Proc.devRef .tc main_v37)
      = wbig (m ((c : Thread nD τ).loc main_arg1)) (m ((c : Thread nD τ).loc main_arg2))
          (m ((c : Thread nD τ).loc main_arg3)) (m ((c : Thread nD τ).loc main_arg4)) := by
  after_results
  rfl

/-- The input buffer holds the input argument with its leading axes merged. -/
theorem after_x (m : (ℓ : Loc nD τ sig) → Buf (Elt Ideal) ℓ) (c : Dev nD) :
    StableHlo.after (hostOps0 (F := Ideal)) (fun b => m (c, b)) (Proc.devRef .tc main_v39)
      = xflat (m ((c : Thread nD τ).loc main_arg0)) := by
  after_results
  rfl

/-- The bias buffer holds the bias argument as one row. -/
theorem after_b (m : (ℓ : Loc nD τ sig) → Buf (Elt Ideal) ℓ) (c : Dev nD) :
    StableHlo.after (hostOps0 (F := Ideal)) (fun b => m (c, b)) (Proc.devRef .tc main_v38)
      = brow (m ((c : Thread nD τ).loc main_arg5)) := by
  after_results
  rfl

/-! ## Each layout operation read at an index -/

/-- The transposed weight at `(i, o)` is the weight at `(o, i)`. -/
theorem tw_apply (w : FVec Ideal S512x512 .f32) (i o : Fin 512) : tw w (ix2 i o) = w (ix2 o i) := by
  unfold tw
  exact transpose_apply [1, 0] w transposes_S512x512_S512x512_1_0 (ix2 i o) (ix2 o i) (fun b => match b with
    | ⟨0, _⟩ => rfl
    | ⟨1, _⟩ => rfl)

/-- On the extended reals the host's negation is negation. -/
theorem ng_apply (a : FVec Ideal S512x512 .f32) (j : S512x512.Idx) : ng a j = -(a j) := rfl

/-- A matrix under a new leading unit axis reads the matrix at the two trailing coordinates. -/
theorem up3_apply (a : FVec Ideal S512x512 .f32) (z : Fin 1) (i o : Fin 512) : up3 a (ix3 z i o) = a (ix2 i o) := by
  unfold up3
  exact broadcastInDim_apply ![1, 2] bcast_S512x512_S1x512x512_1_2 a (ix3 z i o) (ix2 i o) (fun b => match b with
    | ⟨0, _⟩ => rfl
    | ⟨1, _⟩ => rfl)

/-- A stack of four matrices under a new leading unit axis reads the stack at the three trailing coordinates. -/
theorem up4_apply (a : FVec Ideal S4x512x512 .f32) (z : Fin 1) (c' : Fin 4) (i o : Fin 512) :
    up4 a (ix4 z c' i o) = a (ix3 c' i o) := by
  unfold up4
  exact broadcastInDim_apply ![1, 2, 3] bcast_S4x512x512_S1x4x512x512_1_2_3 a (ix4 z c' i o) (ix3 c' i o) (fun b => match b with
    | ⟨0, _⟩ => rfl
    | ⟨1, _⟩ => rfl
    | ⟨2, _⟩ => rfl)

/-- Four unit-height pieces stacked along the leading axis: the entry at `(n, i, o)` is piece `n` at `(0, i, o)`. -/
theorem cat3_apply (f : Fin 4 → FVec Ideal S1x512x512 .f32) (n : Fin 4) (i o : Fin 512) :
    cat3 (f 0) (f 1) (f 2) (f 3) (ix3 n i o) = f n (ix3 (0 : Fin 1) i o) := by
  unfold cat3
  exact concatenate_ofFn_unit_apply (t := S4x512x512) (s₁ := S1x512x512) 0 f
    concatenates_S1x512x512_S1x512x512_S1x512x512_S1x512x512_S4x512x512_d0 rfl rfl (ix3 n i o) n rfl (ix3 (0 : Fin 1) i o)
    (fun b hb => match b, hb with
      | ⟨0, _⟩, hb => absurd rfl hb
      | ⟨1, _⟩, _ => rfl
      | ⟨2, _⟩, _ => rfl)

/-- The same one rank up: the entry at `(c, c', i, o)` is piece `c` at `(0, c', i, o)`. -/
theorem cat4_apply (f : Fin 4 → FVec Ideal S1x4x512x512 .f32) (c c' : Fin 4) (i o : Fin 512) :
    cat4 (f 0) (f 1) (f 2) (f 3) (ix4 c c' i o) = f c (ix4 (0 : Fin 1) c' i o) := by
  unfold cat4
  exact concatenate_ofFn_unit_apply (t := S4x4x512x512) (s₁ := S1x4x512x512) 0 f
    concatenates_S1x4x512x512_S1x4x512x512_S1x4x512x512_S1x4x512x512_S4x4x512x512_d0 rfl rfl (ix4 c c' i o) c rfl
    (ix4 (0 : Fin 1) c' i o)
    (fun b hb => match b, hb with
      | ⟨0, _⟩, hb => absurd rfl hb
      | ⟨1, _⟩, _ => rfl
      | ⟨2, _⟩, _ => rfl
      | ⟨3, _⟩, _ => rfl)

/-- The table with its axes reordered reads, at (input quaternion, input component, output quaternion, output
    component), the table at (input component, output component, input quaternion, output quaternion). -/
theorem perm_apply (y : FVec Ideal S4x4x512x512 .f32) (i : Fin 512) (c : Fin 4) (o : Fin 512) (c' : Fin 4) :
    transpose S512x4x512x4 [2, 0, 3, 1] y transposes_S4x4x512x512_S512x4x512x4_2_0_3_1 (ix4 i c o c') = y (ix4 c c' i o) :=
  transpose_apply [2, 0, 3, 1] y transposes_S4x4x512x512_S512x4x512x4_2_0_3_1 (ix4 i c o c') (ix4 c c' i o) (fun b => match b with
    | ⟨0, _⟩ => rfl
    | ⟨1, _⟩ => rfl
    | ⟨2, _⟩ => rfl
    | ⟨3, _⟩ => rfl)

/-- Flattening (512, 4, 512, 4) to (2048, 2048): row `k` is `(k / 4, k % 4)` and column `n` is `(n / 4, n % 4)`. -/
theorem flat_apply (y : FVec Ideal S512x4x512x4 .f32) (k n : Fin 2048) :
    shapeCast S2048x2048 y shapeCasts_S512x4x512x4_S2048x2048 (ix2 k n)
      = y (ix4 (Quat.quo k) (Quat.rem k) (Quat.quo n) (Quat.rem n)) :=
  shapeCast_apply y shapeCasts_S512x4x512x4_S2048x2048 (ix2 k n) (ix4 (Quat.quo k) (Quat.rem k) (Quat.quo n) (Quat.rem n))
    (by
      rewrite [Shape.rowMajor_val_four, Shape.rowMajor_val_two]
      have hk : k.val < 2048 := k.isLt
      have hn : n.val < 2048 := n.isLt
      show ((k.val / 4 * 4 + k.val % 4) * 512 + n.val / 4) * 4 + n.val % 4 = k.val * 2048 + n.val
      omega)

/-! ## The table and the three terms read at an index -/

/-- A row of the table, built from any four matrices, at (output component, input quaternion, output quaternion):
    the matrix the output component names, at the two quaternion coordinates. -/
theorem row_apply (A B C D : FVec Ideal S512x512 .f32) (c' : Fin 4) (i o : Fin 512) :
    cat3 (up3 A) (up3 B) (up3 C) (up3 D) (ix3 c' i o)
      = (![A (ix2 i o), B (ix2 i o), C (ix2 i o), D (ix2 i o)] : Fin 4 → EReal) c' := by
  refine (cat3_apply ![up3 A, up3 B, up3 C, up3 D] c' i o).trans ?_
  fin_cases c'
  · exact up3_apply A 0 i o
  · exact up3_apply B 0 i o
  · exact up3_apply C 0 i o
  · exact up3_apply D 0 i o

/-- The table, built from any four rows, at (input component, output component, input quaternion, output
    quaternion): the row the input component names, at the other three coordinates. -/
theorem tab_apply (R0 R1 R2 R3 : FVec Ideal S4x512x512 .f32) (c c' : Fin 4) (i o : Fin 512) :
    cat4 (up4 R0) (up4 R1) (up4 R2) (up4 R3) (ix4 c c' i o)
      = (![R0 (ix3 c' i o), R1 (ix3 c' i o), R2 (ix3 c' i o), R3 (ix3 c' i o)] : Fin 4 → EReal) c := by
  refine (cat4_apply ![up4 R0, up4 R1, up4 R2, up4 R3] c c' i o).trans ?_
  fin_cases c
  · exact up4_apply R0 0 c' i o
  · exact up4_apply R1 0 c' i o
  · exact up4_apply R2 0 c' i o
  · exact up4_apply R3 0 c' i o

/-- The table's entry is the signed weight that takes input component `c` of quaternion `i` to output component
    `c'` of quaternion `o`: sixteen cases, each one transposed weight or its negative. -/
theorem table_apply (wr wi wj wk : FVec Ideal S512x512 .f32) (c c' : Fin 4) (i o : Fin 512) :
    table wr wi wj wk (ix4 c c' i o)
      = Quat.ent (Quat.mat wr) (Quat.mat wi) (Quat.mat wj) (Quat.mat wk) c c' i o := by
  unfold table
  rw [tab_apply]
  unfold row0 row1 row2 row3
  rw [row_apply, row_apply, row_apply, row_apply]
  simp only [ng_apply, tw_apply]
  fin_cases c <;> fin_cases c' <;> rfl

/-- The folded matrix at row `k`, column `n`: with `k = 4 i + c` and `n = 4 o + c'`, the signed weight taking input
    component `c` of quaternion `i` to output component `c'` of quaternion `o`. -/
theorem wbig_apply (wr wi wj wk : FVec Ideal S512x512 .f32) (k n : Fin 2048) :
    wbig wr wi wj wk (ix2 k n)
      = Quat.ent (Quat.mat wr) (Quat.mat wi) (Quat.mat wj) (Quat.mat wk) (Quat.rem k) (Quat.rem n) (Quat.quo k) (Quat.quo n) := by
  unfold wbig
  rw [truncf_apply, flat_apply, perm_apply, table_apply]

/-- Row `r` of the merged input is row `(r / 4096, r % 4096)` of the input. -/
theorem xflat_apply (x : FVec Ideal S4x4096x2048 .f32) (r : Fin 16384) (k : Fin 2048) :
    xflat x (ix2 r k) = x (ix3 (⟨r.val / 4096, by omega⟩ : Fin 4) (⟨r.val % 4096, by omega⟩ : Fin 4096) k) := by
  unfold xflat
  exact shapeCast_apply x shapeCasts_S4x4096x2048_S16384x2048 (ix2 r k) _ (by
    rewrite [Shape.rowMajor_val_three, Shape.rowMajor_val_two]
    have hr : r.val < 16384 := r.isLt
    show (r.val / 4096 * 4096 + r.val % 4096) * 2048 + k.val = r.val * 2048 + k.val
    omega)

/-- The one-row bias at column `n` is the bias at `n`. -/
theorem brow_apply (b : FVec Ideal S2048 .f32) (z : Fin 1) (n : Fin 2048) : brow b (ix2 z n) = b (ix1 n) := by
  unfold brow
  exact shapeCast_apply b shapeCasts_S2048_S1x2048 (ix2 z n) (ix1 n) (by
    rewrite [Shape.rowMajor_val_one, Shape.rowMajor_val_two]
    have hz : z.val < 1 := z.isLt
    show n.val = z.val * 2048 + n.val
    omega)

end Cert.KernelIdeal.HostVal

end
-- ==== Proof.KernelValue.lean ====
/-
  The kernel program's result, as a function of its six arguments: the quaternion layer written the folded way.

  At `(b, s, n)` the re-laid result reads row `4096 b + s`, column `n` of the product: the sum over the 2048
  positions `k` of the input's entry `(b, s, k)` times the folded matrix's entry `(k, n)` — which is the signed weight
  taking component `k mod 4` of quaternion `k / 4` to component `n mod 4` of quaternion `n / 4` —, plus the bias at `n`.
-/
import proofs.«405642_j32744830665498_3_alg».proof.Proof.KernelBlocks
import proofs.«405642_j32744830665498_3_alg».proof.Proof.KernelHost
import proofs.«405642_j32744830665498_3_alg».proof.Proof.QuatSpec

noncomputable section

open scoped BigOperators

namespace Cert.KernelIdeal.Val

open Cert.KernelIdeal Cert.KernelIdeal.Gen Cert.KernelIdeal.Fr Cert.KernelIdeal.Blocks
open Idealize.ShloMosaic Idealize.ShloMosaic.TcCoe Idealize.SL.Sem Idealize.ShloMosaic.ValueIdx

variable (m : (ℓ : Loc nD τ sig) → Buf (Elt Ideal) ℓ) (ρ : Dev nD → PrngReg)

/-- The one stretch of host operations before the call. -/
theorem flat_hostOps : List.flatten [hostOps0 (F := Ideal)] = hostOps0 := by
  simp only [List.flatten_cons, List.flatten_nil, List.append_nil]

/-- The three arrays the call reads, as the host operations computed them from the arguments. -/
theorem xarr_eq (c : Dev nD) : xarr m c = HostVal.xflat (m ((c : Thread nD τ).loc main_arg0)) := by
  show StableHlo.after (List.flatten [hostOps0]) (fun b => m (c, b)) (Proc.devRef .tc main_v39) = _
  rw [flat_hostOps]
  exact HostVal.after_x m c
theorem warr_eq (c : Dev nD) : warr m c = HostVal.wbig (m ((c : Thread nD τ).loc main_arg1)) (m ((c : Thread nD τ).loc main_arg2))
    (m ((c : Thread nD τ).loc main_arg3)) (m ((c : Thread nD τ).loc main_arg4)) := by
  show StableHlo.after (List.flatten [hostOps0]) (fun b => m (c, b)) (Proc.devRef .tc main_v37) = _
  rw [flat_hostOps]
  exact HostVal.after_w m c
theorem barr_eq (c : Dev nD) : barr m c = HostVal.brow (m ((c : Thread nD τ).loc main_arg5)) := by
  show StableHlo.after (List.flatten [hostOps0]) (fun b => m (c, b)) (Proc.devRef .tc main_v38) = _
  rw [flat_hostOps]
  exact HostVal.after_b m c

/-- Entry `(4096 b + s, n)` of the product is the folded inner product of row `(b, s)`, plus the bias. -/
theorem gent_eq (x : FVec Ideal S4x4096x2048 .f32) (wr wi wj wk : FVec Ideal S512x512 .f32) (bias : FVec Ideal S2048 .f32)
    (b : Fin 4) (s : Fin 4096) (n : Fin 2048) (h : 4096 * b.val + s.val < 16384) :
    Gent (HostVal.xflat x) (HostVal.wbig wr wi wj wk) (HostVal.brow bias) ⟨4096 * b.val + s.val, h⟩ n
      = Quat.GK x wr wi wj wk bias (ix3 b s n) := by
  unfold Gent
  show _ = Quat.fold (Quat.row x b s) (Quat.mat wr) (Quat.mat wi) (Quat.mat wj) (Quat.mat wk) (Quat.quo n) (Quat.rem n) + bias (ix1 n)
  unfold Quat.fold
  refine congrArg₂ (· + ·) (Finset.sum_congr rfl fun k _ => congrArg₂ (· * ·) ?_ ?_) ?_
  · refine (HostVal.xflat_apply x ⟨4096 * b.val + s.val, h⟩ k).trans ?_
    show x _ = x (ix3 b s k)
    refine congrArg x (funext fun a => Fin.ext ?_)
    have hb := b.isLt; have hs := s.isLt
    match a with
    | ⟨0, _⟩ => show (4096 * b.val + s.val) / 4096 = b.val; omega
    | ⟨1, _⟩ => show (4096 * b.val + s.val) % 4096 = s.val; omega
    | ⟨2, _⟩ => rfl
  · exact HostVal.wbig_apply wr wi wj wk k n
  · exact HostVal.brow_apply bias 0 n

/-- @main's result array is the layer written the folded way. -/
theorem result_eq (c : Dev nD) :
    shapeCast S4x4096x2048 (Gflat (xarr m c) (warr m c) (barr m c)) shapeCasts_S16384x2048_S4x4096x2048
      = Quat.GK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [xarr_eq, warr_eq, barr_eq]
  funext j
  obtain ⟨b, s, n, rfl⟩ : ∃ (b : Fin 4) (s : Fin 4096) (n : Fin 2048), j = ix3 b s n := ⟨j 0, j 1, j 2, eq_ix3 j⟩
  have hb := b.isLt; have hs := s.isLt; have hn := n.isLt
  have h : 4096 * b.val + s.val < 16384 := by omega
  refine (shapeCast_apply _ shapeCasts_S16384x2048_S4x4096x2048 (ix3 b s n) (ix2 (⟨4096 * b.val + s.val, h⟩ : Fin 16384) n) ?_).trans ?_
  · rewrite [Shape.rowMajor_val_two, Shape.rowMajor_val_three]
    show (4096 * b.val + s.val) * 2048 + n.val = (b.val * 4096 + s.val) * 2048 + n.val
    omega
  · exact gent_eq _ _ _ _ _ _ b s n h

/-- The run, read: every weakly fair execution ends with @main's result at the folded layer of the arguments, the arguments
    unchanged. -/
theorem run : θ_run defs (onTc (τ := τ) (main (F := Ideal))) ⟨m, fun _ => 0, ρ⟩ fun r => ∀ c : Dev nD,
      r.2.mem ((c.tc : Thread nD τ).loc main_v41) = Quat.GK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(((h c).2 main_v41 (Pipeline.mem_restRefs_of main_v41 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Val

end
-- ==== Proof.RefValue.lean ====
/-
  The reference program's result, read index by index, is the quaternion layer written the reference's way.

  The program views the input as 16384 rows of 512 quaternions, cuts out the four component planes, multiplies each by
  the transposed weights it needs (ten products in all), adds and subtracts them into the four output component planes,
  lays those side by side along a last axis of length four, views the result as 4 x 4096 x 2048 again and adds the bias.
  Entry (b, s, n) therefore sits in row 4096 b + s, output quaternion n / 4, component n % 4.
-/
import proofs.«405642_j32744830665498_3_alg».proof.Proof.Gen.ReferenceIdeal.Read
import proofs.«405642_j32744830665498_3_alg».proof.Proof.QuatSpec
import Idealize.ShloMosaic.Lib.Pipeline.Value
import Idealize.ShloMosaic.Lib.ValueIdx
import Idealize.ShloMosaic.PureOps.Ideal

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The input array's contents. -/
abbrev TX := (⟨S4x4096x2048, .f32⟩ : BufTy).Contents (Elt Ideal)
/-- A weight matrix's contents. -/
abbrev TW := (⟨S512x512, .f32⟩ : BufTy).Contents (Elt Ideal)

/-- Row `4096 b + s` of the 16384 x 512 x 4 view. -/
def rowIx (b : Fin 4) (s : Fin 4096) : Fin 16384 := ⟨4096 * b.val + s.val, by omega⟩

/-! ## The component planes

Component `c` of quaternion `i` in row `4096 b + s` of the 16384 x 512 x 4 view is the input at `(b, s, 4 i + c)`:
the view is row-major, so its flat position `((4096 b + s) 512 + i) 4 + c` splits as `(b, s, 4 i + c)`. -/

theorem comp0 (x0 : TX) (b : Fin 4) (s : Fin 4096) (i : Fin 512) :
    val_main_v2 (F := Ideal) x0 (ix2 (rowIx b s) i) = x0 (ix3 b s (Quat.at4 i 0)) := by
  rw [val_main_v2_apply, val_main_v1_apply, val_main_v0_apply]
  congr 1
  funext a
  have hb : b.val < 4 := b.isLt
  have hs : s.val < 4096 := s.isLt
  have hi : i.val < 512 := i.isLt
  match a with
  | ⟨0, _⟩ => exact Fin.ext (by show ((((4096 * b.val + s.val) * 512 + i.val) / 512 * 512 + ((4096 * b.val + s.val) * 512 + i.val) / 1 % 512) * 4 + 0) / 8388608 = b.val; omega)
  | ⟨1, _⟩ => exact Fin.ext (by show ((((4096 * b.val + s.val) * 512 + i.val) / 512 * 512 + ((4096 * b.val + s.val) * 512 + i.val) / 1 % 512) * 4 + 0) / 2048 % 4096 = s.val; omega)
  | ⟨2, _⟩ => exact Fin.ext (by show ((((4096 * b.val + s.val) * 512 + i.val) / 512 * 512 + ((4096 * b.val + s.val) * 512 + i.val) / 1 % 512) * 4 + 0) % 2048 = 4 * i.val + 0; omega)

theorem comp1 (x0 : TX) (b : Fin 4) (s : Fin 4096) (i : Fin 512) :
    val_main_v4 (F := Ideal) x0 (ix2 (rowIx b s) i) = x0 (ix3 b s (Quat.at4 i 1)) := by
  rw [val_main_v4_apply, val_main_v3_apply, val_main_v0_apply]
  congr 1
  funext a
  have hb : b.val < 4 := b.isLt
  have hs : s.val < 4096 := s.isLt
  have hi : i.val < 512 := i.isLt
  match a with
  | ⟨0, _⟩ => exact Fin.ext (by show ((((4096 * b.val + s.val) * 512 + i.val) / 512 * 512 + ((4096 * b.val + s.val) * 512 + i.val) / 1 % 512) * 4 + (1 + 0)) / 8388608 = b.val; omega)
  | ⟨1, _⟩ => exact Fin.ext (by show ((((4096 * b.val + s.val) * 512 + i.val) / 512 * 512 + ((4096 * b.val + s.val) * 512 + i.val) / 1 % 512) * 4 + (1 + 0)) / 2048 % 4096 = s.val; omega)
  | ⟨2, _⟩ => exact Fin.ext (by show ((((4096 * b.val + s.val) * 512 + i.val) / 512 * 512 + ((4096 * b.val + s.val) * 512 + i.val) / 1 % 512) * 4 + (1 + 0)) % 2048 = 4 * i.val + 1; omega)

theorem comp2 (x0 : TX) (b : Fin 4) (s : Fin 4096) (i : Fin 512) :
    val_main_v6 (F := Ideal) x0 (ix2 (rowIx b s) i) = x0 (ix3 b s (Quat.at4 i 2)) := by
  rw [val_main_v6_apply, val_main_v5_apply, val_main_v0_apply]
  congr 1
  funext a
  have hb : b.val < 4 := b.isLt
  have hs : s.val < 4096 := s.isLt
  have hi : i.val < 512 := i.isLt
  match a with
  | ⟨0, _⟩ => exact Fin.ext (by show ((((4096 * b.val + s.val) * 512 + i.val) / 512 * 512 + ((4096 * b.val + s.val) * 512 + i.val) / 1 % 512) * 4 + (2 + 0)) / 8388608 = b.val; omega)
  | ⟨1, _⟩ => exact Fin.ext (by show ((((4096 * b.val + s.val) * 512 + i.val) / 512 * 512 + ((4096 * b.val + s.val) * 512 + i.val) / 1 % 512) * 4 + (2 + 0)) / 2048 % 4096 = s.val; omega)
  | ⟨2, _⟩ => exact Fin.ext (by show ((((4096 * b.val + s.val) * 512 + i.val) / 512 * 512 + ((4096 * b.val + s.val) * 512 + i.val) / 1 % 512) * 4 + (2 + 0)) % 2048 = 4 * i.val + 2; omega)

theorem comp3 (x0 : TX) (b : Fin 4) (s : Fin 4096) (i : Fin 512) :
    val_main_v8 (F := Ideal) x0 (ix2 (rowIx b s) i) = x0 (ix3 b s (Quat.at4 i 3)) := by
  rw [val_main_v8_apply, val_main_v7_apply, val_main_v0_apply]
  congr 1
  funext a
  have hb : b.val < 4 := b.isLt
  have hs : s.val < 4096 := s.isLt
  have hi : i.val < 512 := i.isLt
  match a with
  | ⟨0, _⟩ => exact Fin.ext (by show ((((4096 * b.val + s.val) * 512 + i.val) / 512 * 512 + ((4096 * b.val + s.val) * 512 + i.val) / 1 % 512) * 4 + (3 + 0)) / 8388608 = b.val; omega)
  | ⟨1, _⟩ => exact Fin.ext (by show ((((4096 * b.val + s.val) * 512 + i.val) / 512 * 512 + ((4096 * b.val + s.val) * 512 + i.val) / 1 % 512) * 4 + (3 + 0)) / 2048 % 4096 = s.val; omega)
  | ⟨2, _⟩ => exact Fin.ext (by show ((((4096 * b.val + s.val) * 512 + i.val) / 512 * 512 + ((4096 * b.val + s.val) * 512 + i.val) / 1 % 512) * 4 + (3 + 0)) % 2048 = 4 * i.val + 3; omega)

/-! ## The transposed weights: entry `(k, o)` of a transpose is entry `(o, k)` of the weight -/

theorem tr9 (w : TW) (k o : Fin 512) : val_main_v9 (F := Ideal) w (ix2 k o) = Quat.mat w o k := by
  rw [val_main_v9_apply]
  show w _ = w _
  congr 1
  funext a
  match a with
  | ⟨0, _⟩ => rfl
  | ⟨1, _⟩ => rfl

theorem tr11 (w : TW) (k o : Fin 512) : val_main_v11 (F := Ideal) w (ix2 k o) = Quat.mat w o k := by
  rw [val_main_v11_apply]
  show w _ = w _
  congr 1
  funext a
  match a with
  | ⟨0, _⟩ => rfl
  | ⟨1, _⟩ => rfl

theorem tr13 (w : TW) (k o : Fin 512) : val_main_v13 (F := Ideal) w (ix2 k o) = Quat.mat w o k := by
  rw [val_main_v13_apply]
  show w _ = w _
  congr 1
  funext a
  match a with
  | ⟨0, _⟩ => rfl
  | ⟨1, _⟩ => rfl

theorem tr15 (w : TW) (k o : Fin 512) : val_main_v15 (F := Ideal) w (ix2 k o) = Quat.mat w o k := by
  rw [val_main_v15_apply]
  show w _ = w _
  congr 1
  funext a
  match a with
  | ⟨0, _⟩ => rfl
  | ⟨1, _⟩ => rfl

theorem tr17 (w : TW) (k o : Fin 512) : val_main_v17 (F := Ideal) w (ix2 k o) = Quat.mat w o k := by
  rw [val_main_v17_apply]
  show w _ = w _
  congr 1
  funext a
  match a with
  | ⟨0, _⟩ => rfl
  | ⟨1, _⟩ => rfl

theorem tr19 (w : TW) (k o : Fin 512) : val_main_v19 (F := Ideal) w (ix2 k o) = Quat.mat w o k := by
  rw [val_main_v19_apply]
  show w _ = w _
  congr 1
  funext a
  match a with
  | ⟨0, _⟩ => rfl
  | ⟨1, _⟩ => rfl

theorem tr21 (w : TW) (k o : Fin 512) : val_main_v21 (F := Ideal) w (ix2 k o) = Quat.mat w o k := by
  rw [val_main_v21_apply]
  show w _ = w _
  congr 1
  funext a
  match a with
  | ⟨0, _⟩ => rfl
  | ⟨1, _⟩ => rfl

theorem tr23 (w : TW) (k o : Fin 512) : val_main_v23 (F := Ideal) w (ix2 k o) = Quat.mat w o k := by
  rw [val_main_v23_apply]
  show w _ = w _
  congr 1
  funext a
  match a with
  | ⟨0, _⟩ => rfl
  | ⟨1, _⟩ => rfl

theorem tr25 (w : TW) (k o : Fin 512) : val_main_v25 (F := Ideal) w (ix2 k o) = Quat.mat w o k := by
  rw [val_main_v25_apply]
  show w _ = w _
  congr 1
  funext a
  match a with
  | ⟨0, _⟩ => rfl
  | ⟨1, _⟩ => rfl

theorem tr27 (w : TW) (k o : Fin 512) : val_main_v27 (F := Ideal) w (ix2 k o) = Quat.mat w o k := by
  rw [val_main_v27_apply]
  show w _ = w _
  congr 1
  funext a
  match a with
  | ⟨0, _⟩ => rfl
  | ⟨1, _⟩ => rfl

/-! ## The ten products

Each contracts a component plane's quaternion axis against a transposed weight: entry `(4096 b + s, o)` is the inner
product, over the 512 input quaternions, of the row's component `c` with row `o` of the weight. -/

theorem dot10 (x0 : TX) (w : TW) (b : Fin 4) (s : Fin 4096) (o : Fin 512) :
    val_main_v10 (F := Ideal) x0 w (ix2 (rowIx b s) o) = Quat.dotq (Quat.row x0 b s) (Quat.mat w) 0 o := by
  rw [val_main_v10_apply]
  unfold Quat.dotq
  refine Finset.sum_congr rfl fun k _ => ?_
  have el : lidx_main_v10 (ix2 (rowIx b s) o) k = ix2 (rowIx b s) k := by
    funext a
    match a with
    | ⟨0, _⟩ => rfl
    | ⟨1, _⟩ => rfl
  have er : ridx_main_v10 (ix2 (rowIx b s) o) k = ix2 k o := by
    funext a
    match a with
    | ⟨0, _⟩ => rfl
    | ⟨1, _⟩ => rfl
  rw [el, er, comp0, tr9]
  rfl

theorem dot12 (x0 : TX) (w : TW) (b : Fin 4) (s : Fin 4096) (o : Fin 512) :
    val_main_v12 (F := Ideal) x0 w (ix2 (rowIx b s) o) = Quat.dotq (Quat.row x0 b s) (Quat.mat w) 1 o := by
  rw [val_main_v12_apply]
  unfold Quat.dotq
  refine Finset.sum_congr rfl fun k _ => ?_
  have el : lidx_main_v12 (ix2 (rowIx b s) o) k = ix2 (rowIx b s) k := by
    funext a
    match a with
    | ⟨0, _⟩ => rfl
    | ⟨1, _⟩ => rfl
  have er : ridx_main_v12 (ix2 (rowIx b s) o) k = ix2 k o := by
    funext a
    match a with
    | ⟨0, _⟩ => rfl
    | ⟨1, _⟩ => rfl
  rw [el, er, comp1, tr11]
  rfl

theorem dot14 (x0 : TX) (w : TW) (b : Fin 4) (s : Fin 4096) (o : Fin 512) :
    val_main_v14 (F := Ideal) x0 w (ix2 (rowIx b s) o) = Quat.dotq (Quat.row x0 b s) (Quat.mat w) 2 o := by
  rw [val_main_v14_apply]
  unfold Quat.dotq
  refine Finset.sum_congr rfl fun k _ => ?_
  have el : lidx_main_v14 (ix2 (rowIx b s) o) k = ix2 (rowIx b s) k := by
    funext a
    match a with
    | ⟨0, _⟩ => rfl
    | ⟨1, _⟩ => rfl
  have er : ridx_main_v14 (ix2 (rowIx b s) o) k = ix2 k o := by
    funext a
    match a with
    | ⟨0, _⟩ => rfl
    | ⟨1, _⟩ => rfl
  rw [el, er, comp2, tr13]
  rfl

theorem dot16 (x0 : TX) (w : TW) (b : Fin 4) (s : Fin 4096) (o : Fin 512) :
    val_main_v16 (F := Ideal) x0 w (ix2 (rowIx b s) o) = Quat.dotq (Quat.row x0 b s) (Quat.mat w) 3 o := by
  rw [val_main_v16_apply]
  unfold Quat.dotq
  refine Finset.sum_congr rfl fun k _ => ?_
  have el : lidx_main_v16 (ix2 (rowIx b s) o) k = ix2 (rowIx b s) k := by
    funext a
    match a with
    | ⟨0, _⟩ => rfl
    | ⟨1, _⟩ => rfl
  have er : ridx_main_v16 (ix2 (rowIx b s) o) k = ix2 k o := by
    funext a
    match a with
    | ⟨0, _⟩ => rfl
    | ⟨1, _⟩ => rfl
  rw [el, er, comp3, tr15]
  rfl

theorem dot18 (x0 : TX) (w : TW) (b : Fin 4) (s : Fin 4096) (o : Fin 512) :
    val_main_v18 (F := Ideal) x0 w (ix2 (rowIx b s) o) = Quat.dotq (Quat.row x0 b s) (Quat.mat w) 0 o := by
  rw [val_main_v18_apply]
  unfold Quat.dotq
  refine Finset.sum_congr rfl fun k _ => ?_
  have el : lidx_main_v18 (ix2 (rowIx b s) o) k = ix2 (rowIx b s) k := by
    funext a
    match a with
    | ⟨0, _⟩ => rfl
    | ⟨1, _⟩ => rfl
  have er : ridx_main_v18 (ix2 (rowIx b s) o) k = ix2 k o := by
    funext a
    match a with
    | ⟨0, _⟩ => rfl
    | ⟨1, _⟩ => rfl
  rw [el, er, comp0, tr17]
  rfl

theorem dot20 (x0 : TX) (w : TW) (b : Fin 4) (s : Fin 4096) (o : Fin 512) :
    val_main_v20 (F := Ideal) x0 w (ix2 (rowIx b s) o) = Quat.dotq (Quat.row x0 b s) (Quat.mat w) 1 o := by
  rw [val_main_v20_apply]
  unfold Quat.dotq
  refine Finset.sum_congr rfl fun k _ => ?_
  have el : lidx_main_v20 (ix2 (rowIx b s) o) k = ix2 (rowIx b s) k := by
    funext a
    match a with
    | ⟨0, _⟩ => rfl
    | ⟨1, _⟩ => rfl
  have er : ridx_main_v20 (ix2 (rowIx b s) o) k = ix2 k o := by
    funext a
    match a with
    | ⟨0, _⟩ => rfl
    | ⟨1, _⟩ => rfl
  rw [el, er, comp1, tr19]
  rfl

theorem dot22 (x0 : TX) (w : TW) (b : Fin 4) (s : Fin 4096) (o : Fin 512) :
    val_main_v22 (F := Ideal) x0 w (ix2 (rowIx b s) o) = Quat.dotq (Quat.row x0 b s) (Quat.mat w) 0 o := by
  rw [val_main_v22_apply]
  unfold Quat.dotq
  refine Finset.sum_congr rfl fun k _ => ?_
  have el : lidx_main_v22 (ix2 (rowIx b s) o) k = ix2 (rowIx b s) k := by
    funext a
    match a with
    | ⟨0, _⟩ => rfl
    | ⟨1, _⟩ => rfl
  have er : ridx_main_v22 (ix2 (rowIx b s) o) k = ix2 k o := by
    funext a
    match a with
    | ⟨0, _⟩ => rfl
    | ⟨1, _⟩ => rfl
  rw [el, er, comp0, tr21]
  rfl

theorem dot24 (x0 : TX) (w : TW) (b : Fin 4) (s : Fin 4096) (o : Fin 512) :
    val_main_v24 (F := Ideal) x0 w (ix2 (rowIx b s) o) = Quat.dotq (Quat.row x0 b s) (Quat.mat w) 2 o := by
  rw [val_main_v24_apply]
  unfold Quat.dotq
  refine Finset.sum_congr rfl fun k _ => ?_
  have el : lidx_main_v24 (ix2 (rowIx b s) o) k = ix2 (rowIx b s) k := by
    funext a
    match a with
    | ⟨0, _⟩ => rfl
    | ⟨1, _⟩ => rfl
  have er : ridx_main_v24 (ix2 (rowIx b s) o) k = ix2 k o := by
    funext a
    match a with
    | ⟨0, _⟩ => rfl
    | ⟨1, _⟩ => rfl
  rw [el, er, comp2, tr23]
  rfl

theorem dot26 (x0 : TX) (w : TW) (b : Fin 4) (s : Fin 4096) (o : Fin 512) :
    val_main_v26 (F := Ideal) x0 w (ix2 (rowIx b s) o) = Quat.dotq (Quat.row x0 b s) (Quat.mat w) 0 o := by
  rw [val_main_v26_apply]
  unfold Quat.dotq
  refine Finset.sum_congr rfl fun k _ => ?_
  have el : lidx_main_v26 (ix2 (rowIx b s) o) k = ix2 (rowIx b s) k := by
    funext a
    match a with
    | ⟨0, _⟩ => rfl
    | ⟨1, _⟩ => rfl
  have er : ridx_main_v26 (ix2 (rowIx b s) o) k = ix2 k o := by
    funext a
    match a with
    | ⟨0, _⟩ => rfl
    | ⟨1, _⟩ => rfl
  rw [el, er, comp0, tr25]
  rfl

theorem dot28 (x0 : TX) (w : TW) (b : Fin 4) (s : Fin 4096) (o : Fin 512) :
    val_main_v28 (F := Ideal) x0 w (ix2 (rowIx b s) o) = Quat.dotq (Quat.row x0 b s) (Quat.mat w) 3 o := by
  rw [val_main_v28_apply]
  unfold Quat.dotq
  refine Finset.sum_congr rfl fun k _ => ?_
  have el : lidx_main_v28 (ix2 (rowIx b s) o) k = ix2 (rowIx b s) k := by
    funext a
    match a with
    | ⟨0, _⟩ => rfl
    | ⟨1, _⟩ => rfl
  have er : ridx_main_v28 (ix2 (rowIx b s) o) k = ix2 k o := by
    funext a
    match a with
    | ⟨0, _⟩ => rfl
    | ⟨1, _⟩ => rfl
  rw [el, er, comp3, tr27]
  rfl

/-! ## The four output component planes (Hamilton's product, the signs as the program writes them) -/

theorem plane0 (x0 : TX) (x1 x2 x3 x4 : TW) (b : Fin 4) (s : Fin 4096) (o : Fin 512) :
    val_main_v31 (F := Ideal) x0 x1 x2 x3 x4 (ix2 (rowIx b s) o)
      = Quat.dotq (Quat.row x0 b s) (Quat.mat x1) 0 o - Quat.dotq (Quat.row x0 b s) (Quat.mat x2) 1 o
        - Quat.dotq (Quat.row x0 b s) (Quat.mat x3) 2 o - Quat.dotq (Quat.row x0 b s) (Quat.mat x4) 3 o := by
  rw [val_main_v31_apply, val_main_v30_apply, val_main_v29_apply, dot10, dot20, dot24, dot28]
  rfl

theorem plane1 (x0 : TX) (x1 x2 x3 x4 : TW) (b : Fin 4) (s : Fin 4096) (o : Fin 512) :
    val_main_v34 (F := Ideal) x0 x1 x2 x3 x4 (ix2 (rowIx b s) o)
      = Quat.dotq (Quat.row x0 b s) (Quat.mat x1) 1 o + Quat.dotq (Quat.row x0 b s) (Quat.mat x2) 0 o
        + Quat.dotq (Quat.row x0 b s) (Quat.mat x4) 3 o - Quat.dotq (Quat.row x0 b s) (Quat.mat x3) 2 o := by
  rw [val_main_v34_apply, val_main_v33_apply, val_main_v32_apply, dot12, dot18, dot28, dot24]
  rfl

theorem plane2 (x0 : TX) (x1 x2 x3 x4 : TW) (b : Fin 4) (s : Fin 4096) (o : Fin 512) :
    val_main_v37 (F := Ideal) x0 x1 x2 x3 x4 (ix2 (rowIx b s) o)
      = Quat.dotq (Quat.row x0 b s) (Quat.mat x1) 2 o - Quat.dotq (Quat.row x0 b s) (Quat.mat x4) 3 o
        + Quat.dotq (Quat.row x0 b s) (Quat.mat x3) 0 o + Quat.dotq (Quat.row x0 b s) (Quat.mat x2) 1 o := by
  rw [val_main_v37_apply, val_main_v36_apply, val_main_v35_apply, dot14, dot28, dot22, dot20]
  rfl

theorem plane3 (x0 : TX) (x1 x2 x3 x4 : TW) (b : Fin 4) (s : Fin 4096) (o : Fin 512) :
    val_main_v40 (F := Ideal) x0 x1 x2 x3 x4 (ix2 (rowIx b s) o)
      = Quat.dotq (Quat.row x0 b s) (Quat.mat x1) 3 o + Quat.dotq (Quat.row x0 b s) (Quat.mat x3) 2 o
        - Quat.dotq (Quat.row x0 b s) (Quat.mat x2) 1 o + Quat.dotq (Quat.row x0 b s) (Quat.mat x4) 0 o := by
  rw [val_main_v40_apply, val_main_v39_apply, val_main_v38_apply, dot16, dot24, dot20, dot26]
  rfl

/-! ## The four planes side by side

The planes, each given a last axis of length one, are joined along that axis: entry `(m, o, c')` of the join is
entry `(m, o, 0)` of plane `c'`. -/

/-- The four pieces of the join, by output component. -/
def pieces (x0 : TX) (x1 x2 x3 x4 : TW) : Fin 4 → (S16384x512x1.Idx → Elt Ideal .f32) :=
  ![val_main_v41 (F := Ideal) x0 x1 x2 x3 x4, val_main_v42 (F := Ideal) x0 x1 x2 x3 x4,
    val_main_v43 (F := Ideal) x0 x1 x2 x3 x4, val_main_v44 (F := Ideal) x0 x1 x2 x3 x4]

theorem join_read (x0 : TX) (x1 x2 x3 x4 : TW) (m : Fin 16384) (o : Fin 512) (c' : Fin 4) :
    val_main_v45 (F := Ideal) x0 x1 x2 x3 x4 (ix3 m o c') = pieces x0 x1 x2 x3 x4 c' (ix3 m o (0 : Fin 1)) := by
  unfold val_main_v45
  show concatenate S16384x512x4 2
      (List.ofFn fun n : Fin 4 => (⟨S16384x512x1, pieces x0 x1 x2 x3 x4 n⟩ : (s : Shape) × (s.Idx → Elt Ideal .f32)))
      concatenates_S16384x512x1_S16384x512x1_S16384x512x1_S16384x512x1_S16384x512x4_d2 (ix3 m o c') = _
  exact concatenate_ofFn_unit_apply (t := S16384x512x4) (s₁ := S16384x512x1) 2 (pieces x0 x1 x2 x3 x4) _ rfl rfl (ix3 m o c') c' rfl (ix3 m o (0 : Fin 1))
    (fun b => match b with
      | ⟨0, _⟩ => fun _ => rfl
      | ⟨1, _⟩ => fun _ => rfl
      | ⟨2, _⟩ => fun hb => absurd rfl hb)

/-- Piece `c'` at `(4096 b + s, o, 0)` is output component `c'` of quaternion `o`, the four inner products combined. -/
theorem pieces_eq (x0 : TX) (x1 x2 x3 x4 : TW) (b : Fin 4) (s : Fin 4096) (o : Fin 512) (c' : Fin 4) :
    pieces x0 x1 x2 x3 x4 c' (ix3 (rowIx b s) o (0 : Fin 1))
      = Quat.combo (Quat.row x0 b s) (Quat.mat x1) (Quat.mat x2) (Quat.mat x3) (Quat.mat x4) o c' := by
  have e41 : idx_main_v41 (ix3 (rowIx b s) o (0 : Fin 1)) = ix2 (rowIx b s) o := by
    funext a
    match a with
    | ⟨0, _⟩ => rfl
    | ⟨1, _⟩ => rfl
  have e42 : idx_main_v42 (ix3 (rowIx b s) o (0 : Fin 1)) = ix2 (rowIx b s) o := by
    funext a
    match a with
    | ⟨0, _⟩ => rfl
    | ⟨1, _⟩ => rfl
  have e43 : idx_main_v43 (ix3 (rowIx b s) o (0 : Fin 1)) = ix2 (rowIx b s) o := by
    funext a
    match a with
    | ⟨0, _⟩ => rfl
    | ⟨1, _⟩ => rfl
  have e44 : idx_main_v44 (ix3 (rowIx b s) o (0 : Fin 1)) = ix2 (rowIx b s) o := by
    funext a
    match a with
    | ⟨0, _⟩ => rfl
    | ⟨1, _⟩ => rfl
  match c' with
  | ⟨0, _⟩ =>
    show val_main_v41 (F := Ideal) x0 x1 x2 x3 x4 (ix3 (rowIx b s) o (0 : Fin 1)) = _
    rw [val_main_v41_apply, e41, plane0]; rfl
  | ⟨1, _⟩ =>
    show val_main_v42 (F := Ideal) x0 x1 x2 x3 x4 (ix3 (rowIx b s) o (0 : Fin 1)) = _
    rw [val_main_v42_apply, e42, plane1]; rfl
  | ⟨2, _⟩ =>
    show val_main_v43 (F := Ideal) x0 x1 x2 x3 x4 (ix3 (rowIx b s) o (0 : Fin 1)) = _
    rw [val_main_v43_apply, e43, plane2]; rfl
  | ⟨3, _⟩ =>
    show val_main_v44 (F := Ideal) x0 x1 x2 x3 x4 (ix3 (rowIx b s) o (0 : Fin 1)) = _
    rw [val_main_v44_apply, e44, plane3]; rfl

/-! ## The result

Viewed as 4 x 4096 x 2048 again, entry `(b, s, n)` has flat position `((4096 b + s) 512 + n / 4) 4 + n % 4` in the
join: row `4096 b + s`, quaternion `n / 4`, component `n % 4`. The bias is broadcast along the first two axes. -/

theorem ref_eq_G (x0 : (⟨S4x4096x2048, .f32⟩ : BufTy).Contents (Elt Ideal)) (x1 x2 x3 x4 : (⟨S512x512, .f32⟩ : BufTy).Contents (Elt Ideal)) (x5 : (⟨S2048, .f32⟩ : BufTy).Contents (Elt Ideal)) :
    Cert.ReferenceIdeal.Read.val_main_v49 (F := Ideal) x0 x1 x2 x3 x4 x5 = Quat.G x0 x1 x2 x3 x4 x5 := by
  funext j
  obtain ⟨b, s, n, rfl⟩ : ∃ (b : Fin 4) (s : Fin 4096) (n : Fin 2048), j = ix3 b s n := ⟨j 0, j 1, j 2, eq_ix3 j⟩
  have hb : b.val < 4 := b.isLt
  have hs : s.val < 4096 := s.isLt
  have hn : n.val < 2048 := n.isLt
  have e46 : idx_main_v46 (ix3 b s n) = ix3 (rowIx b s) (Quat.quo n) (Quat.rem n) := by
    funext a
    match a with
    | ⟨0, _⟩ => exact Fin.ext (by show ((b.val * 4096 + s.val) * 2048 + n.val) / 2048 = 4096 * b.val + s.val; omega)
    | ⟨1, _⟩ => exact Fin.ext (by show ((b.val * 4096 + s.val) * 2048 + n.val) / 4 % 512 = n.val / 4; omega)
    | ⟨2, _⟩ => exact Fin.ext (by show ((b.val * 4096 + s.val) * 2048 + n.val) % 4 = n.val % 4; omega)
  have e48 : idx_main_v47 (idx_main_v48 (ix3 b s n)) = ix1 n := by
    funext a
    match a with
    | ⟨0, _⟩ => rfl
  rw [val_main_v49_apply, val_main_v46_apply, val_main_v48_apply, val_main_v47_apply, e46, e48, join_read, pieces_eq]
  rfl

end Cert.ReferenceIdeal.RefValue

end
-- ==== Proof.QuatAlgebra.lean ====
/-
  The folded inner product of length 2048 and the signed combination of four inner products of length 512 are the
  same number when every entry is a real number.

  The sum over a row of 2048 positions is taken quaternion by quaternion (position `4 i + c`), which splits it into
  four sums over the 512 quaternions, one per input component; this much holds for any extended reals. In each of
  the four sums the weight enters with a fixed sign, and a sum of negated finite products is the negation of the
  sum: that is the one place finiteness is used.
-/
import proofs.«405642_j32744830665498_3_alg».proof.Proof.QuatSpec
import Mathlib.Data.EReal.Operations
import Mathlib.Algebra.BigOperators.Fin
import Mathlib.Tactic.FinCases

noncomputable section

open scoped BigOperators

namespace Quat

open Idealize.ShloMosaic Idealize.ShloMosaic.ValueIdx

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Positions `4 i + c` list a row of 2048 exactly once. -/
def at4Equiv : Fin 512 × Fin 4 ≃ Fin 2048 where
  toFun p := at4 p.1 p.2
  invFun k := (quo k, rem k)
  left_inv p := by simp only [quo_at4, rem_at4]
  right_inv k := at4_quo_rem k

/-- A sum over a row taken quaternion by quaternion. -/
theorem sum_at4 {M : Type} [AddCommMonoid M] (f : Fin 2048 → M) :
    ∑ k, f k = ∑ i : Fin 512, (f (at4 i 0) + f (at4 i 1) + f (at4 i 2) + f (at4 i 3)) := by
  rw [← Equiv.sum_comp at4Equiv f, Fintype.sum_prod_type]
  refine Finset.sum_congr rfl fun i _ => ?_
  rw [Fin.sum_univ_four]
  rfl

/-- The folded inner product as four sums over the quaternions, one per input component. -/
theorem fold_expand (xv : Fin 2048 → EReal) (wr wi wj wk : Fin 512 → Fin 512 → EReal) (o : Fin 512) (c' : Fin 4) :
    fold xv wr wi wj wk o c'
      = (∑ i, xv (at4 i 0) * ent wr wi wj wk 0 c' i o) + (∑ i, xv (at4 i 1) * ent wr wi wj wk 1 c' i o)
        + (∑ i, xv (at4 i 2) * ent wr wi wj wk 2 c' i o) + (∑ i, xv (at4 i 3) * ent wr wi wj wk 3 c' i o) := by
  unfold fold
  rw [sum_at4]
  simp only [rem_at4, quo_at4, Finset.sum_add_distrib]

/-- A sum of finite products against negated weights is the negated inner product. -/
theorem sum_mul_neg (x w : Fin 512 → EReal) (hx : Fin' x) (hw : Fin' w) :
    ∑ i, x i * -(w i) = -∑ i, x i * w i := by
  lift x to Fin 512 → ℝ using hx
  lift w to Fin 512 → ℝ using hw
  simp only [← EReal.coe_neg, ← EReal.coe_mul, ← coe_sum, mul_neg, Finset.sum_neg_distrib]

theorem dotq_neg (xv : Fin 2048 → EReal) (w : Fin 512 → Fin 512 → EReal) (hx : Fin' xv) (hw : ∀ o, Fin' (w o))
    (c : Fin 4) (o : Fin 512) : ∑ i, xv (at4 i c) * -(w o i) = -dotq xv w c o :=
  sum_mul_neg (fun i => xv (at4 i c)) (w o) (fun i => hx (at4 i c)) (hw o)

/-! ## The four output components

For each output component the four weights enter the folded column with the signs the combination writes out;
after moving the signs out of the sums the two sides differ only in the order of the four terms. -/

section cases

variable (xv : Fin 2048 → EReal) (wr wi wj wk : Fin 512 → Fin 512 → EReal)
  (hx : Fin' xv) (hr : ∀ o, Fin' (wr o)) (hi : ∀ o, Fin' (wi o)) (hj : ∀ o, Fin' (wj o)) (hk : ∀ o, Fin' (wk o))
  (o : Fin 512)

include hx hi hj hk

theorem fold_eq_combo_0 : fold xv wr wi wj wk o 0 = combo xv wr wi wj wk o 0 := by
  rw [fold_expand]
  show (∑ i, xv (at4 i 0) * wr o i) + (∑ i, xv (at4 i 1) * -(wi o i))
      + (∑ i, xv (at4 i 2) * -(wj o i)) + (∑ i, xv (at4 i 3) * -(wk o i))
    = dotq xv wr 0 o - dotq xv wi 1 o - dotq xv wj 2 o - dotq xv wk 3 o
  rw [dotq_neg xv wi hx hi, dotq_neg xv wj hx hj, dotq_neg xv wk hx hk]
  simp only [dotq, sub_eq_add_neg]

theorem fold_eq_combo_1 : fold xv wr wi wj wk o 1 = combo xv wr wi wj wk o 1 := by
  rw [fold_expand]
  show (∑ i, xv (at4 i 0) * wi o i) + (∑ i, xv (at4 i 1) * wr o i)
      + (∑ i, xv (at4 i 2) * -(wj o i)) + (∑ i, xv (at4 i 3) * wk o i)
    = dotq xv wr 1 o + dotq xv wi 0 o + dotq xv wk 3 o - dotq xv wj 2 o
  rw [dotq_neg xv wj hx hj]
  simp only [dotq, sub_eq_add_neg]
  ac_rfl

theorem fold_eq_combo_2 : fold xv wr wi wj wk o 2 = combo xv wr wi wj wk o 2 := by
  rw [fold_expand]
  show (∑ i, xv (at4 i 0) * wj o i) + (∑ i, xv (at4 i 1) * wi o i)
      + (∑ i, xv (at4 i 2) * wr o i) + (∑ i, xv (at4 i 3) * -(wk o i))
    = dotq xv wr 2 o - dotq xv wk 3 o + dotq xv wj 0 o + dotq xv wi 1 o
  rw [dotq_neg xv wk hx hk]
  simp only [dotq, sub_eq_add_neg]
  ac_rfl

theorem fold_eq_combo_3 : fold xv wr wi wj wk o 3 = combo xv wr wi wj wk o 3 := by
  rw [fold_expand]
  show (∑ i, xv (at4 i 0) * wk o i) + (∑ i, xv (at4 i 1) * -(wi o i))
      + (∑ i, xv (at4 i 2) * wj o i) + (∑ i, xv (at4 i 3) * wr o i)
    = dotq xv wr 3 o + dotq xv wj 2 o - dotq xv wi 1 o + dotq xv wk 0 o
  rw [dotq_neg xv wi hx hi]
  simp only [dotq, sub_eq_add_neg]
  ac_rfl

end cases

/-- The folded inner product is the signed combination of the four inner products, entries being real. -/
theorem fold_eq_combo (xv : Fin 2048 → EReal) (wr wi wj wk : Fin 512 → Fin 512 → EReal)
    (hx : Fin' xv) (hr : ∀ o, Fin' (wr o)) (hi : ∀ o, Fin' (wi o)) (hj : ∀ o, Fin' (wj o)) (hk : ∀ o, Fin' (wk o))
    (o : Fin 512) (c' : Fin 4) : fold xv wr wi wj wk o c' = combo xv wr wi wj wk o c' := by
  fin_cases c'
  · exact fold_eq_combo_0 xv wr wi wj wk hx hi hj hk o
  · exact fold_eq_combo_1 xv wr wi wj wk hx hi hj hk o
  · exact fold_eq_combo_2 xv wr wi wj wk hx hi hj hk o
  · exact fold_eq_combo_3 xv wr wi wj wk hx hi hj hk o

/-- The layer's result written the folded way is the result written the reference's way; the bias is added to
    both unchanged. -/
theorem GK_eq_G (x : SX.Idx → EReal) (wr wi wj wk : SW.Idx → EReal) (bias : SB.Idx → EReal)
    (hx : Fin' x) (hr : Fin' wr) (hi : Fin' wi) (hj : Fin' wj) (hk : Fin' wk) :
    GK x wr wi wj wk bias = G x wr wi wj wk bias := by
  funext j
  unfold GK G
  rw [fold_eq_combo (row x (j 0) (j 1)) (mat wr) (mat wi) (mat wj) (mat wk)
    (fun k => hx _) (fun o i => hr _) (fun o i => hi _) (fun o i => hj _) (fun o i => hk _)]

end Quat

end
-- ==== Proof.FiniteInputs.lean ====
/-
  From the precondition "every entry of every input has absolute value below +∞" to "every entry is a real number".

  The precondition is a conjunction, by `and` on one-bit words, of six reductions by `and` over all axes of the
  comparison `|x| < +∞` taken entry by entry. A conjunction that is 1 has every conjunct 1; a reduction by `and` over
  all axes that is 1 met a 1 at every entry; and on the extended reals `max x (-x) < ⊤` says that `x` is neither
  `⊤` nor `⊥`.
-/
import proofs.«405642_j32744830665498_3_alg».proof.Proof.Gen.Pre_finite_inputs
import proofs.«405642_j32744830665498_3_alg».proof.Proof.QuatSpec
import Idealize.ShloMosaic.Lib.ReduceAll
import Idealize.ShloMosaic.Lib.ValueIdx
import Idealize.ShloMosaic.PureOps.Ideal

noncomputable section

namespace Cert.Pre_finite_inputs.FiniteInputs

open Idealize.ShloMosaic Idealize.ShloMosaic.ValueIdx

/-- The result of a reduction over all axes has one index. -/
local instance : Subsingleton S_.Idx := ⟨fun a b => funext fun d => d.elim0⟩

/-- The bit pattern of `+∞` denotes `⊤`. -/
theorem ofBits_inf : Ideal.ofBits .f32 0x7F800000#32 = ⊤ := by simp [Ideal.ofBits, Ideal.ieee]

/-- One entry: `|a| < +∞` as a one-bit word is 1 only if `a` is a real number. -/
theorem ne_top_bot_of_abs_lt_inf (a : Ideal .f32)
    (e : FloatOps.cmpf .olt (FloatOps.hostAbsf a) (FloatOps.ofBits (F := Ideal) .f32 0x7F800000#32) = 1#1) :
    a ≠ ⊤ ∧ a ≠ ⊥ := by
  have e' : Ideal.cmp .olt (max (a : EReal) (-(a : EReal))) (Ideal.ofBits .f32 0x7F800000#32) = 1#1 := e
  rw [ofBits_inf] at e'
  unfold Ideal.cmp at e'
  have hlt : max (a : EReal) (-(a : EReal)) < ⊤ := by
    by_contra hn
    simp [hn] at e'
  rw [max_lt_iff] at hlt
  refine ⟨ne_of_lt hlt.1, ?_⟩
  intro hb
  rw [hb] at hlt
  exact absurd hlt.2 (by simp)

/-- One array: if `all (|x| < +∞)` is 1 then every entry of `x` is a real number, whatever the shape. -/
theorem fin_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    Quat.Fin' x := by
  intro i
  have h := Host.reduce_andi_all _ _ hr hu ix0 e i
  exact ne_top_bot_of_abs_lt_inf (x i) h

/-- The precondition gives that every entry of the input and of the four weights is a real number. -/
theorem finite_of_fn [Cert.Pre_finite_inputs.Facts] (x0 : FVec Ideal S4x4096x2048 .f32) (x1 x2 x3 x4 : FVec Ideal S512x512 .f32) (x5 : FVec Ideal S2048 .f32)
    (h : Cert.Pre_finite_inputs.fn (F := Ideal) x0 x1 x2 x3 x4 x5 = fun _ => 1#1) :
    Quat.Fin' x0 ∧ Quat.Fin' x1 ∧ Quat.Fin' x2 ∧ Quat.Fin' x3 ∧ Quat.Fin' x4 := by
  have e := congrFun h ix0
  unfold Cert.Pre_finite_inputs.fn Cert.Pre_finite_inputs.fn_part1 at e
  dsimp only at e
  -- the conjunction, outermost first: (((((a0 ∧ a1) ∧ a2) ∧ a3) ∧ a4) ∧ a5)
  obtain ⟨e4, -⟩ := IntOp.andi_eq_one.1 e
  obtain ⟨e3, h4⟩ := IntOp.andi_eq_one.1 e4
  obtain ⟨e2, h3⟩ := IntOp.andi_eq_one.1 e3
  obtain ⟨e1, h2⟩ := IntOp.andi_eq_one.1 e2
  obtain ⟨h0, h1⟩ := IntOp.andi_eq_one.1 e1
  exact ⟨fin_of_all x0 _ _ _ h0, fin_of_all x1 _ _ _ h1, fin_of_all x2 _ _ _ h2, fin_of_all x3 _ _ _ h3,
    fin_of_all x4 _ _ _ h4⟩

end Cert.Pre_finite_inputs.FiniteInputs

end
-- ==== Proof.lean ====
/-
  The quaternion linear layer: the kernel's folded single product equals the reference's Hamilton combination.

  Both programs take an input `x : [4, 4096, 2048]` whose rows hold 512 quaternions component by component, four weight
  matrices `wr, wi, wj, wk : [512, 512]` and a bias of length 2048.

  * The reference takes the four components of each row apart, forms ten `[16384, 512] × [512, 512]` products against the
    transposed weights, and combines them by Hamilton's rule into the four output components, which it interleaves
    again and adds the bias to (`Quat.G`).
  * The kernel folds the four weights ONCE, on the host, into a `2048 × 2048` matrix whose entry at row `4 i + c`, column
    `4 o + c'` is the signed weight taking input component `c` of quaternion `i` to output component `c'` of quaternion
    `o`; one pallas_call over 32 blocks of 512 rows then multiplies the re-laid input by it and adds the bias
    (`Quat.GK`). The kernel rounds both factors to bf16; on the extended reals a change of format is the identity.

  On finite inputs the two are one function: a sum over the 2048 positions of a row is the sum over the 512 quaternions
  of the four components' terms, and the sixteen signs are Hamilton's (`Quat.GK_eq_G`). Finiteness is used there and only
  there: a difference of two infinite inner products is not the inner product of the differences.

  The kernel's frame is proved from the launch theorem for one region with host operations around it; its value is read
  off that run block by block; the reference's run and its stages read at an index are the generated modules.
-/
import proofs.«405642_j32744830665498_3_alg».proof.Defs
import proofs.«405642_j32744830665498_3_alg».proof.Proof.Gen.Kernel
import proofs.«405642_j32744830665498_3_alg».proof.Proof.Gen.KernelIdeal
import proofs.«405642_j32744830665498_3_alg».proof.Proof.Gen.ReferenceIdeal
import proofs.«405642_j32744830665498_3_alg».proof.Proof.Gen.Pre_finite_inputs
import proofs.«405642_j32744830665498_3_alg».proof.Proof.Gen.ReferenceIdeal.Run
import proofs.«405642_j32744830665498_3_alg».proof.Proof.Gen.ReferenceIdeal.Read
import proofs.«405642_j32744830665498_3_alg».proof.Proof.KernelFrame
import proofs.«405642_j32744830665498_3_alg».proof.Proof.KernelIdealFrame
import proofs.«405642_j32744830665498_3_alg».proof.Proof.KernelValue
import proofs.«405642_j32744830665498_3_alg».proof.Proof.RefValue
import proofs.«405642_j32744830665498_3_alg».proof.Proof.QuatAlgebra
import proofs.«405642_j32744830665498_3_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel ends at the folded layer and the reference at Hamilton's
    combination of the same finite arguments: one array. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  obtain ⟨f0, f1, f2, f3, f4⟩ := Cert.Pre_finite_inputs.FiniteInputs.finite_of_fn _ _ _ _ _ _ (hpre c)
  rw [Cert.ReferenceIdeal.Read.val_main_v49_eq, Cert.ReferenceIdeal.RefValue.ref_eq_G, h0, h1, h2, h3, h4, h5]
  exact (Quat.GK_eq_G _ _ _ _ _ _ f0 f1 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
